-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x256 : Shape := ⟨3, ![8, 2048, 256]⟩
abbrev S256x256 : Shape := ⟨2, ![256, 256]⟩
abbrev S256 : Shape := ⟨1, ![256]⟩
abbrev S_ : Shape := ⟨0, ![]⟩

class Facts : Prop where
  bcast_S_S8x2048x256 : S_.BroadcastsInDim S8x2048x256 (![] : Fin 0 → Fin S8x2048x256.rank)
  reducesTo_S8x2048x256_S_d0_1_2 : S8x2048x256.ReducesTo [0, 1, 2] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S256 .f32) (main_arg5 : FVec F S256x256 .f32) (main_arg6 : FVec F S256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg5
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  main_v33

def fn {F : FTy → Type} [FloatOps F] (main_arg0 : FVec F S8x2048x256 .f32) (main_arg1 : FVec F S256x256 .f32) (main_arg2 : FVec F S256 .f32) (main_arg3 : FVec F S256x256 .f32) (main_arg4 : FVec F S256 .f32) (main_arg5 : FVec F S256x256 .f32) (main_arg6 : FVec F S256 .f32) : IVec S_ 1 :=
  let main_v0 : FVec F S8x2048x256 .f32 := Host.absf main_arg0
  let main_cst : FVec F S_ .f32 := constant S_ .f32 0x7F800000#32
  let main_v1 : FVec F S8x2048x256 .f32 := broadcastInDim S8x2048x256 ![] bcast_S_S8x2048x256 main_cst
  let main_v2 : IVec S8x2048x256 1 := cmpf .olt main_v0 main_v1
  let main_c : IVec S_ 1 := constantI S_ 1 1#1
  let main_v3 : IVec S_ 1 := (fun x v => Host.reduce IntOp.andi x v reducesTo_S8x2048x256_S_d0_1_2 h_S_) main_v2 main_c
  let main_v4 : FVec F S256x256 .f32 := Host.absf main_arg1
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_arg5 main_arg6 main_v13 main_v16
-- ==== Kernel.lean ====
abbrev S8x2048x256 : Shape := ⟨3, ![8, 2048, 256]⟩
abbrev S256x256 : Shape := ⟨2, ![256, 256]⟩
abbrev S256 : Shape := ⟨1, ![256]⟩
abbrev S16384x256 : Shape := ⟨2, ![16384, 256]⟩
abbrev S1024x256 : Shape := ⟨2, ![1024, 256]⟩
abbrev S1x256 : Shape := ⟨2, ![1, 256]⟩
abbrev S8x256x256 : Shape := ⟨3, ![8, 256, 256]⟩
abbrev S8x256x1 : Shape := ⟨3, ![8, 256, 1]⟩
abbrev S8x256 : Shape := ⟨2, ![8, 256]⟩

abbrev nBuf : Space → Nat
  | .hbm => 15
  | .vmem => 23
  | .smem => 0
  | _ => 0

abbrev bufTy : (tb : Table) → Fin (tcTables nBuf tb) → BufTy
  | .hbm, ⟨0, _⟩ => ⟨S8x2048x256, .f32⟩
  | .hbm, ⟨1, _⟩ => ⟨S256x256, .f32⟩
  | .hbm, ⟨2, _⟩ => ⟨S256, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S16384x256, .f32⟩
  | .hbm, ⟨8, _⟩ => ⟨S16384x256, .bf16⟩
  | .hbm, ⟨9, _⟩ => ⟨S16384x256, .bf16⟩
  | .hbm, ⟨10, _⟩ => ⟨S16384x256, .bf16⟩
  | .hbm, ⟨11, _⟩ => ⟨S8x2048x256, .bf16⟩
  | .hbm, ⟨12, _⟩ => ⟨S8x2048x256, .bf16⟩
  | .hbm, ⟨13, _⟩ => ⟨S8x2048x256, .bf16⟩
  | .hbm, ⟨14, _⟩ => ⟨S8x2048x256, .f32⟩
  | .local _ .vmem, ⟨0, _⟩ => ⟨S1024x256, .f32⟩
  | .local _ .vmem, ⟨1, _⟩ => ⟨S1024x256, .f32⟩
  | .local _ .vmem, ⟨2, _⟩ => ⟨S256x256, .f32⟩
  | .local _ .vmem, ⟨3, _⟩ => ⟨S256, .f32⟩
  | .local _ .vmem, ⟨4, _⟩ => ⟨S256x256, .f32⟩
  | .local _ .vmem, ⟨5, _⟩ => ⟨S256, .f32⟩
  | .local _ .vmem, ⟨6, _⟩ => ⟨S256x256, .f32⟩
  | .local _ .vmem, ⟨7, _⟩ => ⟨S256, .f32⟩
  | .local _ .vmem, ⟨8, _⟩ => ⟨S1024x256, .bf16⟩
  | .local _ .vmem, ⟨9, _⟩ => ⟨S1024x256, .bf16⟩
  | .local _ .vmem, ⟨10, _⟩ => ⟨S1024x256, .bf16⟩
  | .local _ .vmem, ⟨11, _⟩ => ⟨S1024x256, .bf16⟩
  | .local _ .vmem, ⟨12, _⟩ => ⟨S1024x256, .bf16⟩
  | .local _ .vmem, ⟨13, _⟩ => ⟨S1024x256, .bf16⟩
  | .local _ .vmem, ⟨14, _⟩ => ⟨S8x256x256, .bf16⟩
  | .local _ .vmem, ⟨15, _⟩ => ⟨S8x256x256, .bf16⟩
  | .local _ .vmem, ⟨16, _⟩ => ⟨S8x2048x256, .bf16⟩
  | .local _ .vmem, ⟨17, _⟩ => ⟨S8x2048x256, .bf16⟩
  | .local _ .vmem, ⟨18, _⟩ => ⟨S8x256x256, .f32⟩
  | .local _ .vmem, ⟨19, _⟩ => ⟨S8x256x256, .f32⟩
  | .local _ .vmem, ⟨20, _⟩ => ⟨S8x256x1, .f32⟩
  | .local _ .vmem, ⟨21, _⟩ => ⟨S8x256x1, .f32⟩
  | .local _ .vmem, ⟨22, _⟩ => ⟨S8x256x256, .f32⟩
  | _, _ => ⟨S8x2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev main_v1_2 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg3_1 : Ref sig .tc := ⟨.vmem, 19, rfl⟩
abbrev cc1_scratch0 : Ref sig .tc := ⟨.vmem, 20, rfl⟩
abbrev cc1_scratch1 : Ref sig .tc := ⟨.vmem, 21, rfl⟩
abbrev cc1_scratch2 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem2_0 : DmaSem sig := 17
abbrev cc1_sem3_0 : DmaSem sig := 18
abbrev cc1_sem3_1 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![8], ![false]⟩

def k1_mult1 : BitVec 32 :=
  let c0_i32 : BitVec 32 := 0#32
  let c256_i32 : BitVec 32 := 256#32
  let v14 : BitVec 32 := Scalar.muli c0_i32 c256_i32
  v14
def k1_off1 (c0_i32 : BitVec 32) : Fin 3 → Nat :=
  let c0_13 : Index := 0#32
  let c256_i32 : BitVec 32 := 256#32
  let v14 : BitVec 32 := Scalar.muli c0_i32 c256_i32
  let v15 : BitVec 32 := v14
  let v16 : Index := Scalar.indexCast v15
  let c0_14 : Index := 0#32
  ![0, v16.toNat, 0]
def k1_mult2 : BitVec 32 :=
  let c1_i32 : BitVec 32 := 1#32
  let c256_i32_39 : BitVec 32 := 256#32
  let v52 : BitVec 32 := Scalar.muli c1_i32 c256_i32_39
  v52
def k1_mult3 : BitVec 32 :=
  let c2_i32 : BitVec 32 := 2#32
  let c256_i32_66 : BitVec 32 := 256#32
  let v90 : BitVec 32 := Scalar.muli c2_i32 c256_i32_66
  v90
def k1_mult4 : BitVec 32 :=
  let c3_i32 : BitVec 32 := 3#32
  let c256_i32_93 : BitVec 32 := 256#32
  let v128 : BitVec 32 := Scalar.muli c3_i32 c256_i32_93
  v128
def k1_mult5 : BitVec 32 :=
  let c4_i32 : BitVec 32 := 4#32
  let c256_i32_120 : BitVec 32 := 256#32
  let v166 : BitVec 32 := Scalar.muli c4_i32 c256_i32_120
  v166
def k1_mult6 : BitVec 32 :=
  let c5_i32 : BitVec 32 := 5#32
  let c256_i32_147 : BitVec 32 := 256#32
  let v204 : BitVec 32 := Scalar.muli c5_i32 c256_i32_147
  v204
def k1_mult7 : BitVec 32 :=
  let c6_i32 : BitVec 32 := 6#32
  let c256_i32_174 : BitVec 32 := 256#32
  let v242 : BitVec 32 := Scalar.muli c6_i32 c256_i32_174
  v242
def k1_mult8 : BitVec 32 :=
  let c7_i32 : BitVec 32 := 7#32
  let c256_i32_201 : BitVec 32 := 256#32
  let v280 : BitVec 32 := Scalar.muli c7_i32 c256_i32_201
  v280
def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage1_0 : Fin 2 → Memref sig .tc .vmem S8x256x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S8x2048x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S8x2048x256 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S8x256x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  shapeCasts_S8x2048x256_S16384x256 : S8x2048x256.ShapeCasts S16384x256
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  inb_S256_S256_0 : ∀ a, (![0] : Fin 1 → Nat) a + S256.size a ≤ S256.size a
  h_S256 : 0 < S256.numel
  shapeCasts_S256_S1x256 : S256.ShapeCasts S1x256
  broadcasts_S1x256_S1024x256 : S1x256.Broadcasts S1024x256
  packedbf16_S1024x256_S1024x256_0_0 : (Rect.unit (s := S1024x256) ![0, 0] S1024x256.size inb_S1024x256_S1024x256_0_0).PackedRows (EltTy.packing .bf16)
  shapeCasts_S16384x256_S8x2048x256 : S16384x256.ShapeCasts S8x2048x256
  inb_S8x256x1_S8x256x1_0_0_0 : ∀ a, (![0, 0, 0] : Fin 3 → Nat) a + S8x256x1.size a ≤ S8x256x1.size a
  h_S8x256x1 : 0 < S8x256x1.numel
  shapeCasts_S8x256x1_S8x256x1 : S8x256x1.ShapeCasts S8x256x1
  inb_S8x256x256_S8x256x256_0_0_0 : ∀ a, (![0, 0, 0] : Fin 3 → Nat) a + S8x256x256.size a ≤ S8x256x256.size a
  h_S8x256x256 : 0 < S8x256x256.numel
  shapeCasts_S8x256x256_S8x256x256 : S8x256x256.ShapeCasts S8x256x256
  reduces_S8x256x256_S8x256 : S8x256x256.Reduces [2] S8x256
  shapeCasts_S8x256_S8x256x1 : S8x256.ShapeCasts S8x256x1
  broadcasts_S8x256x1_S8x256x256 : S8x256x1.Broadcasts S8x256x256
  dot_S1024x256_S256x256_S1024x256_1_0_0_1_n_n_wf : DotDims.WF S1024x256 S256x256 S1024x256 [1] [0] [0] [1] [] []
  dot_S8x256x256_S8x256x256_S8x256x256_2_2_1_1_0_0_wf : DotDims.WF S8x256x256 S8x256x256 S8x256x256 [2] [2] [1] [1] [0] [0]
  dot_S8x256x256_S8x256x256_S8x256x256_2_1_1_2_0_0_wf : DotDims.WF S8x256x256 S8x256x256 S8x256x256 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S16384x256.size a
  hwx0_0 : ∀ i : grid0.Coords, EltTy.bits .f32 = 32 ∨ (Rect.block (s := S16384x256) S1024x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S256.size a
  hwx0_2 : ∀ i : grid0.Coords, EltTy.bits .f32 = 32 ∨ (Rect.block (s := S256) S256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .f32 = 32 ∨ (Rect.block (s := S256x256) S256x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256.size a ≤ S256.size a
  hwx0_6 : ∀ i : grid0.Coords, EltTy.bits .f32 = 32 ∨ (Rect.block (s := S256) S256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x256.size a ≤ S16384x256.size a
  hwx0_7 : ∀ i : grid0.Coords, EltTy.bits .bf16 = 32 ∨ (Rect.block (s := S16384x256) S1024x256.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1024x256.size a ≤ S16384x256.size a
  hwx0_8 : ∀ i : grid0.Coords, EltTy.bits .bf16 = 32 ∨ (Rect.block (s := S16384x256) S1024x256.size (cc0_transform_8 i) (hinb0_8 i)).WholeWords (EltTy.packing .bf16)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1024x256.size a ≤ S16384x256.size a
  hwx0_9 : ∀ i : grid0.Coords, EltTy.bits .bf16 = 32 ∨ (Rect.block (s := S16384x256) S1024x256.size (cc0_transform_9 i) (hinb0_9 i)).WholeWords (EltTy.packing .bf16)
  hrank1 : 0 < grid1.rank
  k1_mult1_dvd : 256 ∣ k1_mult1.toNat
  k1_off1_inb : ∀ (r : Fin 8), ∀ a, (k1_off1 (BitVec.ofNat 32 r.val)) a + S8x256x256.size a ≤ S8x2048x256.size a
  k1_mult2_dvd : 256 ∣ k1_mult2.toNat
  k1_mult3_dvd : 256 ∣ k1_mult3.toNat
  k1_mult4_dvd : 256 ∣ k1_mult4.toNat
  k1_mult5_dvd : 256 ∣ k1_mult5.toNat
  k1_mult6_dvd : 256 ∣ k1_mult6.toNat
  k1_mult7_dvd : 256 ∣ k1_mult7.toNat
  k1_mult8_dvd : 256 ∣ k1_mult8.toNat
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8x256x256.size a ≤ S8x2048x256.size a
  hwx1_0 : ∀ i : grid1.Coords, EltTy.bits .bf16 = 32 ∨ (Rect.block (s := S8x2048x256) S8x256x256.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8x2048x256.size a ≤ S8x2048x256.size a
  hwx1_1 : ∀ i : grid1.Coords, EltTy.bits .bf16 = 32 ∨ (Rect.block (s := S8x2048x256) S8x2048x256.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S8x2048x256.size a ≤ S8x2048x256.size a
  hwx1_2 : ∀ i : grid1.Coords, EltTy.bits .bf16 = 32 ∨ (Rect.block (s := S8x2048x256) S8x2048x256.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S8x256x256.size a ≤ S8x2048x256.size a
  hwx1_3 : ∀ i : grid1.Coords, EltTy.bits .f32 = 32 ∨ (Rect.block (s := S8x2048x256) S8x256x256.size (cc1_transform_3 i) (hinb1_3 i)).WholeWords (EltTy.packing .f32)

variable [Facts₀]

def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf
def dot_S8x256x256_S8x256x256_S8x256x256_2_2_1_1_0_0 : DotDims S8x256x256 S8x256x256 S8x256x256 where
  lhsContracting := [2]
  rhsContracting := [2]
  lhsNonContracting := [1]
  rhsNonContracting := [1]
  lhsBatch := [0]
  rhsBatch := [0]
  wf := dot_S8x256x256_S8x256x256_S8x256x256_2_2_1_1_0_0_wf
def dot_S8x256x256_S8x256x256_S8x256x256_2_1_1_2_0_0 : DotDims S8x256x256 S8x256x256 S8x256x256 where
  lhsContracting := [2]
  rhsContracting := [1]
  lhsNonContracting := [1]
  rhsNonContracting := [2]
  lhsBatch := [0]
  rhsBatch := [0]
  wf := dot_S8x256x256_S8x256x256_S8x256x256_2_1_1_2_0_0_wf

abbrev win0_0 : Pipeline.Window sig grid0 :=
  Pipeline.Window.ofSpec (Memref.whole main_v0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v1_0) S1024x256.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v1_1) S1024x256.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v1_2) S1024x256.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v2) S8x256x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S8x2048x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v4) S8x2048x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v5) S8x256x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S8x2048x256 : Shape := ⟨3, ![8, 2048, 256]⟩
abbrev S256x256 : Shape := ⟨2, ![256, 256]⟩
abbrev S256 : Shape := ⟨1, ![256]⟩
abbrev S1x1x256 : Shape := ⟨3, ![1, 1, 256]⟩
abbrev S8x2048x2048 : Shape := ⟨3, ![8, 2048, 2048]⟩
abbrev S_ : Shape := ⟨0, ![]⟩
abbrev S8x2048 : Shape := ⟨2, ![8, 2048]⟩
abbrev S8x2048x1 : Shape := ⟨3, ![8, 2048, 1]⟩

abbrev nBuf : Space → Nat
  | .hbm => 39
  | .vmem => 0
  | .smem => 0
  | _ => 0

abbrev bufTy : (tb : Table) → Fin (tcTables nBuf tb) → BufTy
  | .hbm, ⟨0, _⟩ => ⟨S8x2048x256, .f32⟩
  | .hbm, ⟨1, _⟩ => ⟨S256x256, .f32⟩
  | .hbm, ⟨2, _⟩ => ⟨S256, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S8x2048x256, .f32⟩
  | .hbm, ⟨8, _⟩ => ⟨S1x1x256, .f32⟩
  | .hbm, ⟨9, _⟩ => ⟨S8x2048x256, .f32⟩
  | .hbm, ⟨10, _⟩ => ⟨S8x2048x256, .f32⟩
  | .hbm, ⟨11, _⟩ => ⟨S8x2048x256, .f32⟩
  | .hbm, ⟨12, _⟩ => ⟨S1x1x256, .f32⟩
  | .hbm, ⟨13, _⟩ => ⟨S8x2048x256, .f32⟩
  | .hbm, ⟨14, _⟩ => ⟨S8x2048x256, .f32⟩
  | .hbm, ⟨15, _⟩ => ⟨S8x2048x256, .f32⟩
  | .hbm, ⟨16, _⟩ => ⟨S1x1x256, .f32⟩
  | .hbm, ⟨17, _⟩ => ⟨S8x2048x256, .f32⟩
  | .hbm, ⟨18, _⟩ => ⟨S8x2048x256, .f32⟩
  | .hbm, ⟨19, _⟩ => ⟨S8x2048x2048, .f32⟩
  | .hbm, ⟨20, _⟩ => ⟨S_, .f32⟩
  | .hbm, ⟨21, _⟩ => ⟨S_, .f32⟩
  | .hbm, ⟨22, _⟩ => ⟨S8x2048x2048, .f32⟩
  | .hbm, ⟨23, _⟩ => ⟨S8x2048x2048, .f32⟩
  | .hbm, ⟨24, _⟩ => ⟨S_, .f32⟩
  | .hbm, ⟨25, _⟩ => ⟨S8x2048, .f32⟩
  | .hbm, ⟨26, _⟩ => ⟨S_, .f32⟩
  | .hbm, ⟨27, _⟩ => ⟨S8x2048, .f32⟩
  | .hbm, ⟨28, _⟩ => ⟨S8x2048, .f32⟩
  | .hbm, ⟨29, _⟩ => ⟨S8x2048x1, .f32⟩
  | .hbm, ⟨30, _⟩ => ⟨S8x2048x2048, .f32⟩
  | .hbm, ⟨31, _⟩ => ⟨S8x2048x2048, .f32⟩
  | .hbm, ⟨32, _⟩ => ⟨S8x2048x2048, .f32⟩
  | .hbm, ⟨33, _⟩ => ⟨S_, .f32⟩
  | .hbm, ⟨34, _⟩ => ⟨S8x2048, .f32⟩
  | .hbm, ⟨35, _⟩ => ⟨S8x2048x1, .f32⟩
  | .hbm, ⟨36, _⟩ => ⟨S8x2048x2048, .f32⟩
  | .hbm, ⟨37, _⟩ => ⟨S8x2048x2048, .f32⟩
  | .hbm, ⟨38, _⟩ => ⟨S8x2048x256, .f32⟩
  | _, _ => ⟨S8x2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_0 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩

abbrev nD : Nat := 1
abbrev τ : Topo := Topo.v7x

variable {F : FTy → Type} [FloatOps F]

class Facts₀ : Prop where
  bcast_S256_S1x1x256_2 : S256.BroadcastsInDim S1x1x256 (![2] : Fin 1 → Fin S1x1x256.rank)
  bcast_S1x1x256_S8x2048x256_0_1_2 : S1x1x256.BroadcastsInDim S8x2048x256 (![0, 1, 2] : Fin 3 → Fin S8x2048x256.rank)
  bcast_S_S8x2048x2048 : S_.BroadcastsInDim S8x2048x2048 (![] : Fin 0 → Fin S8x2048x2048.rank)
  reducesTo_S8x2048x2048_S8x2048_d2 : S8x2048x2048.ReducesTo [2] S8x2048
  h_S_ : 0 < S_.numel
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S8x2048x1_S8x2048x2048_0_1_2 : S8x2048x1.BroadcastsInDim S8x2048x2048 (![0, 1, 2] : Fin 3 → Fin S8x2048x2048.rank)
  dot_S8x2048x256_S256x256_S8x2048x256_2_0_01_1_n_n_wf : DotDims.WF S8x2048x256 S256x256 S8x2048x256 [2] [0] [0, 1] [1] [] []
  dot_S8x2048x256_S8x2048x256_S8x2048x2048_2_2_1_1_0_0_wf : DotDims.WF S8x2048x256 S8x2048x256 S8x2048x2048 [2] [2] [1] [1] [0] [0]
  dot_S8x2048x2048_S8x2048x256_S8x2048x256_2_1_1_2_0_0_wf : DotDims.WF S8x2048x2048 S8x2048x256 S8x2048x256 [2] [1] [1] [2] [0] [0]

variable [Facts₀]

def dot_S8x2048x256_S256x256_S8x2048x256_2_0_01_1_n_n : DotDims S8x2048x256 S256x256 S8x2048x256 where
  lhsContracting := [2]
  rhsContracting := [0]
  lhsNonContracting := [0, 1]
  rhsNonContracting := [1]
  lhsBatch := []
  rhsBatch := []
  wf := dot_S8x2048x256_S256x256_S8x2048x256_2_0_01_1_n_n_wf
def dot_S8x2048x256_S8x2048x256_S8x2048x2048_2_2_1_1_0_0 : DotDims S8x2048x256 S8x2048x256 S8x2048x2048 where
  lhsContracting := [2]
  rhsContracting := [2]
  lhsNonContracting := [1]
  rhsNonContracting := [1]
  lhsBatch := [0]
  rhsBatch := [0]
  wf := dot_S8x2048x256_S8x2048x256_S8x2048x2048_2_2_1_1_0_0_wf
def dot_S8x2048x2048_S8x2048x256_S8x2048x256_2_1_1_2_0_0 : DotDims S8x2048x2048 S8x2048x256 S8x2048x256 where
  lhsContracting := [2]
  rhsContracting := [1]
  lhsNonContracting := [1]
  rhsNonContracting := [2]
  lhsBatch := [0]
  rhsBatch := [0]
  wf := dot_S8x2048x2048_S8x2048x256_S8x2048x256_2_1_1_2_0_0_wf

class Facts : Prop extends Facts₀ where

variable [Facts]
-- ==== Proof.Spec.lean ====
/-
  The mathematics both programs compute, over the reals.

  A dense layer: (x W + b)(batch, row, d) = Σ_f x(batch, row, f) · W(f, d) + b(d).
  Attention for one query row `q` (its 256 features) of batch `b` against the 2048 keys K(b, ·, ·) and values
  V(b, ·, ·), at output feature d, written with plain exponentials:
      ( Σ_k exp(q · K(b,k,·)) · V(b,k,d) ) / ( Σ_k exp(q · K(b,k,·)) ).
  A softmax with any shift subtracted in the exponent, and the tiled running form of it, are this quotient.
  The whole function: query rows are the dense layer's rows scaled by 1/16 (the key dimension is 256).
-/
import Idealize.ShloMosaic.PureOps.Ideal
import Idealize.ShloMosaic.Lib.ValueIdx

noncomputable section

open scoped BigOperators

namespace Cert.Attn

open Idealize.ShloMosaic Idealize.ShloMosaic.ValueIdx

/-- The activations' shape [8, 2048, 256], a weight's [256, 256], a bias's [256]. -/
abbrev SA : Shape := ⟨3, ![8, 2048, 256]⟩
abbrev SW : Shape := ⟨2, ![256, 256]⟩
abbrev SB : Shape := ⟨1, ![256]⟩

/-- The dense layer `x W + b`. -/
def projR (x : SA.Idx → ℝ) (w : SW.Idx → ℝ) (b : SB.Idx → ℝ) : SA.Idx → ℝ := fun i =>
  (∑ f : Fin 256, x (ix3 (i 0) (i 1) f) * w (ix2 f (i 2))) + b (ix1 (i 2))

/-- The logit of a query row against key `k` of batch `b`. -/
def logit (q : Fin 256 → ℝ) (K : SA.Idx → ℝ) (b : Fin 8) (k : Fin 2048) : ℝ := ∑ e : Fin 256, q e * K (ix3 b k e)

/-- Attention of one query row at one output feature: the exponential-weighted average of the values. -/
def attnRow (q : Fin 256 → ℝ) (K V : SA.Idx → ℝ) (b : Fin 8) (d : Fin 256) : ℝ :=
  (∑ k : Fin 2048, Real.exp (logit q K b k) * V (ix3 b k d)) / (∑ k : Fin 2048, Real.exp (logit q K b k))

/-- The larger entry of a row of 256 reals. -/
def rowMax (f : Fin 256 → ℝ) : ℝ := Finset.univ.sup' Finset.univ_nonempty f

/-- The whole function of the seven argument arrays, as extended reals. -/
def G (x : SA.Idx → ℝ) (wq : SW.Idx → ℝ) (bq : SB.Idx → ℝ) (wk : SW.Idx → ℝ) (bk : SB.Idx → ℝ) (wv : SW.Idx → ℝ)
    (bv : SB.Idx → ℝ) : SA.Idx → EReal := fun i =>
  ((attnRow (fun e => projR x wq bq (ix3 (i 0) (i 1) e) * (1 / 16)) (projR x wk bk) (projR x wv bv) (i 0) (i 2) : ℝ) : EReal)

end Cert.Attn

end
-- ==== Proof.Finite.lean ====
/-
  Finiteness of the inputs: under the precondition every entry of the seven argument arrays is a real number.
-/
import proofs.«421883_j63634235458009_3_alg».proof.Pre_finite_inputs
import proofs.«421883_j63634235458009_3_alg».proof.Proof.Spec
import Idealize.ShloMosaic.Lib.ReduceAll

noncomputable section

open scoped BigOperators

namespace Cert.Attn

open Idealize.ShloMosaic

/-- The shape of a scalar has exactly one index. -/
instance subsingleton_scalar_idx : Subsingleton Cert.Pre_finite_inputs.S_.Idx :=
  ⟨fun a b => funext fun d => d.elim0⟩

/-- The pattern with all exponent bits set and no fraction bit denotes +∞. -/
theorem ofBits_inf_f32 : Ideal.ofBits .f32 0x7F800000#32 = (⊤ : EReal) := by
  simp [Ideal.ofBits, Ideal.ieee]

/-- An extended real whose absolute value max x (-x) lies strictly below +∞ is a real:
    at ⊥ and at ⊤ the absolute value is ⊤ itself. -/
theorem exists_real_of_abs_lt_top (x : EReal) (h : max x (-x) < ⊤) : ∃ r : ℝ, x = (r : EReal) := by
  induction x using EReal.rec with
  | bot => simp at h
  | coe r => exact ⟨r, rfl⟩
  | top => simp at h

/-- One conjunct of the predicate, over any shape: if the conjunction over all entries of |a i| < +∞ is one,
    the array is a family of reals. -/
theorem real_of_all {S : Shape} {axes : List (Fin S.rank)} (a : FVec Ideal S .f32)
    (hb : Cert.Pre_finite_inputs.S_.BroadcastsInDim S (![] : Fin 0 → Fin S.rank))
    (hred : S.ReducesTo axes Cert.Pre_finite_inputs.S_) (hpos : 0 < Cert.Pre_finite_inputs.S_.numel)
    (h : Host.reduce IntOp.andi
        (cmpf .olt (Host.absf a)
          (broadcastInDim S ![] hb (constant (F := Ideal) Cert.Pre_finite_inputs.S_ .f32 0x7F800000#32)))
        (constantI Cert.Pre_finite_inputs.S_ 1 1#1) hred hpos ValueIdx.ix0 = 1#1) :
    ∃ r : S.Idx → ℝ, a = fun i => ((r i : ℝ) : EReal) := by
  have hall : ∀ i : S.Idx, ∃ r : ℝ, a i = (r : EReal) := by
    intro i
    have e := Host.reduce_andi_all _ _ hred hpos _ h i
    have e' : BitVec.ofBool (decide (max (a i) (-(a i)) < Ideal.ofBits .f32 0x7F800000#32)) = 1#1 := e
    rw [ofBits_inf_f32] at e'
    have hbit : ∀ b : Bool, BitVec.ofBool b = 1#1 → b = true := by decide
    exact exists_real_of_abs_lt_top _ (of_decide_eq_true (hbit _ e'))
  choose r hr using hall
  exact ⟨r, funext hr⟩

/-- If the finiteness predicate is all ones on seven arrays of extended reals, each array is a family of reals. -/
theorem real_of_pre [Cert.Pre_finite_inputs.Facts]
    (a0 : FVec Ideal Cert.Pre_finite_inputs.S8x2048x256 .f32) (a1 : FVec Ideal Cert.Pre_finite_inputs.S256x256 .f32)
    (a2 : FVec Ideal Cert.Pre_finite_inputs.S256 .f32) (a3 : FVec Ideal Cert.Pre_finite_inputs.S256x256 .f32)
    (a4 : FVec Ideal Cert.Pre_finite_inputs.S256 .f32) (a5 : FVec Ideal Cert.Pre_finite_inputs.S256x256 .f32)
    (a6 : FVec Ideal Cert.Pre_finite_inputs.S256 .f32)
    (h : Cert.Pre_finite_inputs.fn (F := Ideal) a0 a1 a2 a3 a4 a5 a6 = fun _ => 1#1) :
    (∃ r : SA.Idx → ℝ, a0 = fun i => ((r i : ℝ) : EReal)) ∧ (∃ r : SW.Idx → ℝ, a1 = fun i => ((r i : ℝ) : EReal))
    ∧ (∃ r : SB.Idx → ℝ, a2 = fun i => ((r i : ℝ) : EReal)) ∧ (∃ r : SW.Idx → ℝ, a3 = fun i => ((r i : ℝ) : EReal))
    ∧ (∃ r : SB.Idx → ℝ, a4 = fun i => ((r i : ℝ) : EReal)) ∧ (∃ r : SW.Idx → ℝ, a5 = fun i => ((r i : ℝ) : EReal))
    ∧ (∃ r : SB.Idx → ℝ, a6 = fun i => ((r i : ℝ) : EReal)) := by
  have h0 := congrFun h ValueIdx.ix0
  dsimp only [Cert.Pre_finite_inputs.fn, Cert.Pre_finite_inputs.fn_part1] at h0
  -- the result is a chain of six conjunctions, nested to the left
  obtain ⟨h0, h6⟩ := IntOp.andi_eq_one.1 h0
  obtain ⟨h0, h5⟩ := IntOp.andi_eq_one.1 h0
  obtain ⟨h0, h4⟩ := IntOp.andi_eq_one.1 h0
  obtain ⟨h0, h3⟩ := IntOp.andi_eq_one.1 h0
  obtain ⟨h0, h2⟩ := IntOp.andi_eq_one.1 h0
  obtain ⟨h0, h1⟩ := IntOp.andi_eq_one.1 h0
  exact ⟨real_of_all a0 _ _ _ h0, real_of_all a1 _ _ _ h1, real_of_all a2 _ _ _ h2, real_of_all a3 _ _ _ h3,
    real_of_all a4 _ _ _ h4, real_of_all a5 _ _ _ h5, real_of_all a6 _ _ _ h6⟩

end Cert.Attn

end
-- ==== Proof.IdealCoe.lean ====
/-
  Extended reals that are reals: how sums, quotients and maxima of coerced reals read.
-/
import Idealize.ShloMosaic.PureOps.Ideal

noncomputable section

open scoped BigOperators

namespace Cert.Attn

open Idealize.ShloMosaic

/-- A finite sum of reals, coerced termwise, is the coerced sum. -/
theorem coe_sum {ι : Type} (s : Finset ι) (f : ι → ℝ) : (∑ i ∈ s, ((f i : ℝ) : EReal)) = ((∑ i ∈ s, f i : ℝ) : EReal) := by
  classical
  induction s using Finset.induction_on with
  | empty => simp
  | insert a s ha ih =>
    rw [Finset.sum_insert ha, Finset.sum_insert ha, ih, EReal.coe_add]

/-- The quotient of two reals, the divisor not zero. -/
theorem div_coe_coe (a b : ℝ) (hb : b ≠ 0) : Ideal.div (a : EReal) (b : EReal) = ((a / b : ℝ) : EReal) := by
  rw [Ideal.div_coe hb, ← EReal.coe_mul, mul_one_div]

/-- The larger of two coerced reals is the coerced larger real. -/
theorem max_coe_coe (x y : ℝ) : max ((x : ℝ) : EReal) ((y : ℝ) : EReal) = ((max x y : ℝ) : EReal) := by
  rcases le_total x y with h | h
  · rw [max_eq_right h, max_eq_right (EReal.coe_le_coe_iff.mpr h)]
  · rw [max_eq_left h, max_eq_left (EReal.coe_le_coe_iff.mpr h)]

/-- Folding the maximum over a nonempty finite set of coerced reals gives the coerced largest entry. -/
theorem fold_max_coe_finset {ι : Type} (s : Finset ι) (hs : s.Nonempty) (f : ι → ℝ) :
    s.fold max (⊥ : EReal) (fun k => ((f k : ℝ) : EReal)) = ((s.sup' hs f : ℝ) : EReal) := by
  classical
  induction hs using Finset.Nonempty.cons_induction with
  | singleton a =>
    rw [Finset.fold_singleton, Finset.sup'_singleton, max_eq_left bot_le]
  | cons a s ha hs ih =>
    rw [Finset.fold_cons, Finset.sup'_cons hs, ih, max_coe_coe]

/-- The maximum of a nonempty row of reals folded from the bottom element is the row's largest entry. -/
theorem fold_max_coe (n : ℕ) (f : Fin (n + 1) → ℝ) :
    (Finset.univ : Finset (Fin (n + 1))).fold max (⊥ : EReal) (fun k => ((f k : ℝ) : EReal))
      = ((Finset.univ.sup' Finset.univ_nonempty f : ℝ) : EReal) :=
  fold_max_coe_finset Finset.univ Finset.univ_nonempty f

end Cert.Attn

end
-- ==== Proof.Consts.lean ====
/-
  The float literals of the two programs as extended reals: 1/16, 256 and its square root 16, minus infinity,
  and the finite negative constant the running shift starts from (a real, whatever its value).
-/
import Idealize.ShloMosaic.PureOps.Ideal
import Idealize.ShloMosaic.PureOps.Ideal.Laws

noncomputable section

open scoped BigOperators

namespace Cert.Attn

open Idealize.ShloMosaic

/-- 0x3D800000 is 2⁻⁴. -/
theorem ofBits_sixteenth : Ideal.ofBits .f32 0x3D800000#32 = (((1 : ℝ) / 16 : ℝ) : EReal) := by
  simp [Ideal.ofBits, Ideal.ieee]
  rw [← EReal.coe_mul]
  exact congrArg _ (by norm_num)

/-- 0x43800000 is 256. -/
theorem ofBits_256 : Ideal.ofBits .f32 0x43800000#32 = ((256 : ℝ) : EReal) := by
  simp [Ideal.ofBits, Ideal.ieee]
  rw [← EReal.coe_mul]
  exact congrArg _ (by norm_num)

/-- The square root of 256 is 16. -/
theorem sqrt_256 : Ideal.sqrt ((256 : ℝ) : EReal) = ((16 : ℝ) : EReal) := by
  rw [Ideal.sqrt_coe, if_neg (by norm_num)]
  have h : Real.sqrt 256 = 16 := by
    rw [show (256 : ℝ) = 16 ^ 2 by norm_num]; exact Real.sqrt_sq (by norm_num)
  rw [h]

/-- 0xFF800000 is minus infinity. -/
theorem ofBits_neg_inf : Ideal.ofBits .f32 0xFF800000#32 = (⊥ : EReal) := by
  simp [Ideal.ofBits, Ideal.ieee]

/-- The constant the running shift starts from, as a real. -/
def negBig : ℝ := -(11744050 * (2 : ℝ) ^ (104 : ℤ))

/-- 0xFF333332 is that real (about -2.38e38): finite. -/
theorem ofBits_negBig : Ideal.ofBits .f32 0xFF333332#32 = ((negBig : ℝ) : EReal) := by
  unfold negBig
  simp [Ideal.ofBits, Ideal.ieee]

end Cert.Attn

end
-- ==== Proof.OnlineSoftmax.lean ====
/-
  The running (tiled) form of the exponential-weighted average, and the shifted softmax, are the plain quotient.

  For any sequence of shifts mu_0, mu_1, … the recurrences
      l_{n+1}   = exp(mu_n - mu_{n+1}) · l_n   + Σ_k exp(s_n(k) - mu_{n+1})
      acc_{n+1} = exp(mu_n - mu_{n+1}) · acc_n + Σ_k exp(s_n(k) - mu_{n+1}) · v_n(k)
  from l_0 = acc_0 = 0 keep  l_n = Σ_{j<n} Σ_k exp(s_j(k) - mu_n)  and the like for acc_n, because
  exp(mu_n - mu_{n+1}) · exp(s - mu_n) = exp(s - mu_{n+1}); the common factor exp(-mu_n) cancels in acc_n / l_n.
-/
import proofs.«421883_j63634235458009_3_alg».proof.Proof.Spec
import Mathlib.Analysis.SpecialFunctions.Exp
import Mathlib.Algebra.BigOperators.Fin
import Mathlib.Logic.Equiv.Fin.Basic

noncomputable section

open scoped BigOperators

namespace Cert.Attn

/-- Tile `n` (keys 256 n … 256 n + 255) of a row of 2048 reals; zero past the eighth tile. -/
def tileOf (f : Fin 2048 → ℝ) : ℕ → Fin 256 → ℝ := fun n k =>
  if h : n < 8 then f ⟨256 * n + k.val, by have := k.isLt; omega⟩ else 0

/-- The running normaliser. -/
def lSeq (s : ℕ → Fin 256 → ℝ) (mu : ℕ → ℝ) : ℕ → ℝ
  | 0 => 0
  | n + 1 => Real.exp (mu n - mu (n + 1)) * lSeq s mu n + ∑ k : Fin 256, Real.exp (s n k - mu (n + 1))

/-- The running numerator. -/
def accSeq (s v : ℕ → Fin 256 → ℝ) (mu : ℕ → ℝ) : ℕ → ℝ
  | 0 => 0
  | n + 1 => Real.exp (mu n - mu (n + 1)) * accSeq s v mu n + ∑ k : Fin 256, Real.exp (s n k - mu (n + 1)) * v n k

/-- The running normaliser in closed form: every earlier tile's exponentials, shifted by the current shift. -/
theorem lSeq_closed (s : ℕ → Fin 256 → ℝ) (mu : ℕ → ℝ) (n : ℕ) :
    lSeq s mu n = ∑ j ∈ Finset.range n, ∑ k : Fin 256, Real.exp (s j k - mu n) := by
  induction n with
  | zero => simp [lSeq]
  | succ n ih =>
    rw [lSeq, ih, Finset.sum_range_succ, Finset.mul_sum]
    congr 1
    refine Finset.sum_congr rfl fun j _ => ?_
    rw [Finset.mul_sum]
    refine Finset.sum_congr rfl fun k _ => ?_
    rw [← Real.exp_add]
    congr 1
    ring

/-- The running numerator in closed form. -/
theorem accSeq_closed (s v : ℕ → Fin 256 → ℝ) (mu : ℕ → ℝ) (n : ℕ) :
    accSeq s v mu n = ∑ j ∈ Finset.range n, ∑ k : Fin 256, Real.exp (s j k - mu n) * v j k := by
  induction n with
  | zero => simp [accSeq]
  | succ n ih =>
    rw [accSeq, ih, Finset.sum_range_succ, Finset.mul_sum]
    congr 1
    refine Finset.sum_congr rfl fun j _ => ?_
    rw [Finset.mul_sum]
    refine Finset.sum_congr rfl fun k _ => ?_
    rw [← mul_assoc, ← Real.exp_add]
    congr 2
    ring

/-- Eight tiles of 256 keys, summed tile by tile, are the sum over all 2048 keys (key 256 j + k is entry k of tile j). -/
theorem sum_tiles (F : ℕ → Fin 256 → ℝ) (h : Fin 2048 → ℝ)
    (hF : ∀ (j : ℕ) (_ : j < 8) (k : Fin 256), F j k = h ⟨256 * j + k.val, by have := k.isLt; omega⟩) :
    ∑ j ∈ Finset.range 8, ∑ k : Fin 256, F j k = ∑ kk : Fin 2048, h kk := by
  rw [Finset.sum_range]
  have e1 : ∀ j : Fin 8, ∑ k : Fin 256, F j.val k
      = ∑ k : Fin 256, h ⟨256 * j.val + k.val, by have := k.isLt; have := j.isLt; omega⟩ :=
    fun j => Finset.sum_congr rfl fun k _ => hF j.val j.isLt k
  rw [Finset.sum_congr rfl fun j _ => e1 j, ← Fintype.sum_prod_type']
  refine Fintype.sum_equiv (finProdFinEquiv : Fin 8 × Fin 256 ≃ Fin 2048) _ _ fun x => ?_
  congr 1
  apply Fin.ext
  simp only [finProdFinEquiv_apply_val]
  omega

/-- A common shift in the exponent is a common divisor of the weighted sum. -/
theorem shift_sum_mul (f g : Fin 2048 → ℝ) (M : ℝ) :
    ∑ k : Fin 2048, Real.exp (f k - M) * g k = (∑ k : Fin 2048, Real.exp (f k) * g k) / Real.exp M := by
  rw [Finset.sum_div]
  refine Finset.sum_congr rfl fun k _ => ?_
  rw [Real.exp_sub, div_mul_eq_mul_div]

/-- A common shift in the exponent is a common divisor of the sum. -/
theorem shift_sum (f : Fin 2048 → ℝ) (M : ℝ) :
    ∑ k : Fin 2048, Real.exp (f k - M) = (∑ k : Fin 2048, Real.exp (f k)) / Real.exp M := by
  rw [Finset.sum_div]
  refine Finset.sum_congr rfl fun k _ => ?_
  rw [Real.exp_sub]

/-- The running normaliser after eight tiles is the shifted sum over all keys. -/
theorem lSeq_eight (f : Fin 2048 → ℝ) (mu : ℕ → ℝ) :
    lSeq (tileOf f) mu 8 = ∑ kk : Fin 2048, Real.exp (f kk - mu 8) := by
  rw [lSeq_closed]
  refine sum_tiles _ (fun kk => Real.exp (f kk - mu 8)) fun j hj k => ?_
  simp only [tileOf, dif_pos hj]

/-- The running numerator after eight tiles is the shifted weighted sum over all keys. -/
theorem accSeq_eight (f g : Fin 2048 → ℝ) (mu : ℕ → ℝ) :
    accSeq (tileOf f) (tileOf g) mu 8 = ∑ kk : Fin 2048, Real.exp (f kk - mu 8) * g kk := by
  rw [accSeq_closed]
  refine sum_tiles _ (fun kk => Real.exp (f kk - mu 8) * g kk) fun j hj k => ?_
  simp only [tileOf, dif_pos hj]

/-- After eight tiles the running quotient is the plain quotient over all 2048 keys, whatever the shifts. -/
theorem online_attn (f g : Fin 2048 → ℝ) (mu : ℕ → ℝ) :
    accSeq (tileOf f) (tileOf g) mu 8 / lSeq (tileOf f) mu 8
      = (∑ k : Fin 2048, Real.exp (f k) * g k) / (∑ k : Fin 2048, Real.exp (f k)) := by
  rw [accSeq_eight, lSeq_eight, shift_sum_mul, shift_sum, div_div_div_cancel_right₀ (Real.exp_pos _).ne']

/-- The running normaliser after eight tiles is positive. -/
theorem lSeq_pos (f : Fin 2048 → ℝ) (mu : ℕ → ℝ) : 0 < lSeq (tileOf f) mu 8 := by
  rw [lSeq_eight]
  exact Finset.sum_pos (fun k _ => Real.exp_pos _) ⟨⟨0, by norm_num⟩, Finset.mem_univ _⟩

/-- A softmax with any shift `M` in the exponent, weighting `g`, is the plain quotient. -/
theorem softmax_quot (f g : Fin 2048 → ℝ) (M : ℝ) :
    (∑ k : Fin 2048, (Real.exp (f k - M) / ∑ k' : Fin 2048, Real.exp (f k' - M)) * g k)
      = (∑ k : Fin 2048, Real.exp (f k) * g k) / (∑ k : Fin 2048, Real.exp (f k)) := by
  have e1 : ∀ k : Fin 2048, (Real.exp (f k - M) / ∑ k' : Fin 2048, Real.exp (f k' - M)) * g k
      = (Real.exp (f k - M) * g k) / ∑ k' : Fin 2048, Real.exp (f k' - M) := fun k => div_mul_eq_mul_div _ _ _
  rw [Finset.sum_congr rfl fun k _ => e1 k, ← Finset.sum_div, shift_sum_mul, shift_sum,
    div_div_div_cancel_right₀ (Real.exp_pos _).ne']

/-- The shifted exponentials' sum is positive. -/
theorem sum_exp_pos (f : Fin 2048 → ℝ) (M : ℝ) : 0 < ∑ k : Fin 2048, Real.exp (f k - M) := by
  exact Finset.sum_pos (fun k _ => Real.exp_pos _) ⟨⟨0, by norm_num⟩, Finset.mem_univ _⟩

end Cert.Attn

end
-- ==== Proof.RefValue.lean ====
/-
  The reference at real inputs: softmax(Q Kᵀ / sqrt 256) V, read entry by entry, is the plain exponential quotient
  with query rows scaled by 1/16.
-/
import proofs.«421883_j63634235458009_3_alg».proof.Proof.Gen.ReferenceIdeal.Read
import proofs.«421883_j63634235458009_3_alg».proof.Proof.Spec
import proofs.«421883_j63634235458009_3_alg».proof.Proof.IdealCoe
import proofs.«421883_j63634235458009_3_alg».proof.Proof.Consts
import proofs.«421883_j63634235458009_3_alg».proof.Proof.OnlineSoftmax

noncomputable section

open scoped BigOperators

namespace Cert.Attn

open Idealize.ShloMosaic Idealize.ShloMosaic.ValueIdx Cert.ReferenceIdeal

/-! ### Index bookkeeping: the reading functions at explicit coordinates -/

theorem lidx0_eq (b : Fin 8) (r : Fin 2048) (d k : Fin 256) : Read.lidx_main_v0 (ix3 b r d) k = ix3 b r k :=
  funext fun a => Fin.ext (by match a with | ⟨0, _⟩ => rfl | ⟨1, _⟩ => rfl | ⟨2, _⟩ => rfl)

theorem ridx0_eq (b : Fin 8) (r : Fin 2048) (d k : Fin 256) : Read.ridx_main_v0 (ix3 b r d) k = ix2 k d :=
  funext fun a => Fin.ext (by match a with | ⟨0, _⟩ => rfl | ⟨1, _⟩ => rfl)

theorem idx12_eq (b : Fin 8) (r : Fin 2048) (d : Fin 256) : Read.idx_main_v1 (Read.idx_main_v2 (ix3 b r d)) = ix1 d :=
  funext fun a => Fin.ext (by match a with | ⟨0, _⟩ => rfl)

/-! ### The dense layers -/

/-- The first dense layer of the reference, on coerced reals, is the coerced real dense layer. -/
theorem dense_v3 (x : SA.Idx → ℝ) (w : SW.Idx → ℝ) (c : SB.Idx → ℝ) :
    Read.val_main_v3 (F := Ideal) (fun i => ((x i : ℝ) : EReal)) (fun i => ((w i : ℝ) : EReal)) (fun i => ((c i : ℝ) : EReal))
      = fun i => ((projR x w c i : ℝ) : EReal) := by
  funext i
  obtain ⟨b, r, d, rfl⟩ : ∃ b r d, i = ix3 b r d := ⟨i 0, i 1, i 2, eq_ix3 i⟩
  rw [Read.val_main_v3_apply, Read.val_main_v0_apply, Read.val_main_v2_apply, Read.val_main_v1_apply]
  simp only [lidx0_eq, ridx0_eq, idx12_eq, Ideal.addf_def]
  rw [show projR x w c (ix3 b r d) = (∑ f : Fin 256, x (ix3 b r f) * w (ix2 f d)) + c (ix1 d) from rfl]
  rw [EReal.coe_add, ← coe_sum]
  simp only [EReal.coe_mul]

theorem dense_v7 (x : SA.Idx → ℝ) (w : SW.Idx → ℝ) (c : SB.Idx → ℝ) :
    Read.val_main_v7 (F := Ideal) (fun i => ((x i : ℝ) : EReal)) (fun i => ((w i : ℝ) : EReal)) (fun i => ((c i : ℝ) : EReal))
      = fun i => ((projR x w c i : ℝ) : EReal) := dense_v3 x w c

theorem dense_v11 (x : SA.Idx → ℝ) (w : SW.Idx → ℝ) (c : SB.Idx → ℝ) :
    Read.val_main_v11 (F := Ideal) (fun i => ((x i : ℝ) : EReal)) (fun i => ((w i : ℝ) : EReal)) (fun i => ((c i : ℝ) : EReal))
      = fun i => ((projR x w c i : ℝ) : EReal) := dense_v3 x w c

/-! ### The scaled scores -/

theorem lidx12_eq (b : Fin 8) (q k : Fin 2048) (e : Fin 256) : Read.lidx_main_v12 (ix3 b q k) e = ix3 b q e :=
  funext fun a => Fin.ext (by match a with | ⟨0, _⟩ => rfl | ⟨1, _⟩ => rfl | ⟨2, _⟩ => rfl)

theorem ridx12_eq (b : Fin 8) (q k : Fin 2048) (e : Fin 256) : Read.ridx_main_v12 (ix3 b q k) e = ix3 b k e :=
  funext fun a => Fin.ext (by match a with | ⟨0, _⟩ => rfl | ⟨1, _⟩ => rfl | ⟨2, _⟩ => rfl)

/-- The score of query row `q` against key `k` in batch `b`: the rows' inner product over sqrt 256 = 16. -/
def scoreR (Q K : SA.Idx → ℝ) (b : Fin 8) (q k : Fin 2048) : ℝ := (∑ e : Fin 256, Q (ix3 b q e) * K (ix3 b k e)) / 16

section Stages

variable (x : SA.Idx → ℝ) (wq : SW.Idx → ℝ) (bq : SB.Idx → ℝ) (wk : SW.Idx → ℝ) (bk : SB.Idx → ℝ)
  (wv : SW.Idx → ℝ) (bv : SB.Idx → ℝ)

/-- The reference's scores are the coerced real scores of the two dense layers. -/
theorem scores_v15 (b : Fin 8) (q k : Fin 2048) :
    Read.val_main_v15 (F := Ideal) (fun i => ((x i : ℝ) : EReal)) (fun i => ((wq i : ℝ) : EReal))
        (fun i => ((bq i : ℝ) : EReal)) (fun i => ((wk i : ℝ) : EReal)) (fun i => ((bk i : ℝ) : EReal)) (ix3 b q k)
      = ((scoreR (projR x wq bq) (projR x wk bk) b q k : ℝ) : EReal) := by
  rw [Read.val_main_v15_apply, Read.val_main_v12_apply, Read.val_main_v14_apply, Read.val_main_v13_apply,
    Read.val_main_cst_apply, dense_v3, dense_v7]
  simp only [lidx12_eq, ridx12_eq, Ideal.hostDivf_def, Ideal.hostUnary_sqrt_def, Ideal.ofBits_def, ofBits_256, sqrt_256,
    ← EReal.coe_mul, coe_sum]
  rw [div_coe_coe _ _ (by norm_num)]
  rfl

/-! ### The row maximum -/

/-- Key coordinate `k` put back into a (batch, query) pair. -/
theorem lift_eq (h : S8x2048x2048.Reduces [2] S8x2048) (b : Fin 8) (q : Fin 2048) (k : Fin (S8x2048x2048.size 2)) :
    h.lift (ix2 b q) k = ix3 b q (⟨k.val, k.isLt⟩ : Fin 2048) := by
  funext c; apply Fin.ext
  fin_cases c <;> rfl

/-- The reference's shift for query row `q` of batch `b` (the maximum of that row of scores) is some real. -/
theorem max_v18 (b : Fin 8) (q : Fin 2048) :
    ∃ M : ℝ, Read.val_main_v18 (F := Ideal) (fun i => ((x i : ℝ) : EReal)) (fun i => ((wq i : ℝ) : EReal))
        (fun i => ((bq i : ℝ) : EReal)) (fun i => ((wk i : ℝ) : EReal)) (fun i => ((bk i : ℝ) : EReal)) (ix2 b q)
      = ((M : ℝ) : EReal) := by
  have h : S8x2048x2048.Reduces [2] S8x2048 := by decide
  refine ⟨Finset.univ.sup' Finset.univ_nonempty
    (fun k : Fin (2047 + 1) => scoreR (projR x wq bq) (projR x wk bk) b q k), ?_⟩
  rw [Read.val_main_v18_apply, Read.val_main_v17_apply, Read.val_main_cst_1_apply]
  unfold Read.val_main_v16
  rw [Host.reduce_eq_fold_single FloatOps.maximumf _ _ Gen.reducesTo_S8x2048x2048_S8x2048_d2 h Gen.h_S_]
  have hf : (Read.val_main_v15 (F := Ideal) (fun i => ((x i : ℝ) : EReal)) (fun i => ((wq i : ℝ) : EReal))
        (fun i => ((bq i : ℝ) : EReal)) (fun i => ((wk i : ℝ) : EReal)) (fun i => ((bk i : ℝ) : EReal)) ∘ h.lift (ix2 b q))
      = fun k : Fin (2047 + 1) => ((scoreR (projR x wq bq) (projR x wk bk) b q k : ℝ) : EReal) :=
    funext fun k => by
      show Read.val_main_v15 (F := Ideal) _ _ _ _ _ (h.lift (ix2 b q) k) = _
      rw [lift_eq h b q k]
      exact scores_v15 x wq bq wk bk b q _
  rw [hf, Read.val_main_cst_0_apply]
  simp only [Ideal.ofBits_def, ofBits_neg_inf, Ideal.maximumf_def]
  rw [max_eq_right bot_le]
  exact fold_max_coe 2047 _

/-! ### Exponentials, their sum, the weights -/

theorem idx1920_eq (b : Fin 8) (q k : Fin 2048) : Read.idx_main_v19 (Read.idx_main_v20 (ix3 b q k)) = ix2 b q :=
  funext fun a => Fin.ext (by match a with | ⟨0, _⟩ => rfl | ⟨1, _⟩ => rfl)

theorem idx23_eq (b : Fin 8) (q k : Fin 2048) : Read.idx_main_v23 (ix2 b q) k = ix3 b q k :=
  funext fun a => Fin.ext (by match a with | ⟨0, _⟩ => rfl | ⟨1, _⟩ => rfl | ⟨2, _⟩ => rfl)

theorem idx2425_eq (b : Fin 8) (q k : Fin 2048) : Read.idx_main_v24 (Read.idx_main_v25 (ix3 b q k)) = ix2 b q :=
  funext fun a => Fin.ext (by match a with | ⟨0, _⟩ => rfl | ⟨1, _⟩ => rfl)

theorem lidx27_eq (b : Fin 8) (q : Fin 2048) (d : Fin 256) (k : Fin 2048) : Read.lidx_main_v27 (ix3 b q d) k = ix3 b q k :=
  funext fun a => Fin.ext (by match a with | ⟨0, _⟩ => rfl | ⟨1, _⟩ => rfl | ⟨2, _⟩ => rfl)

theorem ridx27_eq (b : Fin 8) (q : Fin 2048) (d : Fin 256) (k : Fin 2048) : Read.ridx_main_v27 (ix3 b q d) k = ix3 b k d :=
  funext fun a => Fin.ext (by match a with | ⟨0, _⟩ => rfl | ⟨1, _⟩ => rfl | ⟨2, _⟩ => rfl)

/-- With the row's shift a real `M`, the shifted exponential of a score. -/
theorem exp_v22 (b : Fin 8) (q : Fin 2048) (M : ℝ)
    (hM : Read.val_main_v18 (F := Ideal) (fun i => ((x i : ℝ) : EReal)) (fun i => ((wq i : ℝ) : EReal))
        (fun i => ((bq i : ℝ) : EReal)) (fun i => ((wk i : ℝ) : EReal)) (fun i => ((bk i : ℝ) : EReal)) (ix2 b q) = ((M : ℝ) : EReal)) (k : Fin 2048) :
    Read.val_main_v22 (F := Ideal) (fun i => ((x i : ℝ) : EReal)) (fun i => ((wq i : ℝ) : EReal))
        (fun i => ((bq i : ℝ) : EReal)) (fun i => ((wk i : ℝ) : EReal)) (fun i => ((bk i : ℝ) : EReal)) (ix3 b q k)
      = ((Real.exp (scoreR (projR x wq bq) (projR x wk bk) b q k - M) : ℝ) : EReal) := by
  rw [Read.val_main_v22_apply, Read.val_main_v21_apply, Read.val_main_v20_apply, Read.val_main_v19_apply, idx1920_eq, hM,
    scores_v15]
  simp only [Ideal.hostUnary_exp_def, Ideal.subf_def]
  rw [← EReal.coe_sub, Ideal.exp_coe]

/-- The row's normaliser: the sum of the shifted exponentials. -/
theorem sum_v23 (b : Fin 8) (q : Fin 2048) (M : ℝ)
    (hM : Read.val_main_v18 (F := Ideal) (fun i => ((x i : ℝ) : EReal)) (fun i => ((wq i : ℝ) : EReal))
        (fun i => ((bq i : ℝ) : EReal)) (fun i => ((wk i : ℝ) : EReal)) (fun i => ((bk i : ℝ) : EReal)) (ix2 b q) = ((M : ℝ) : EReal)) :
    Read.val_main_v23 (F := Ideal) (fun i => ((x i : ℝ) : EReal)) (fun i => ((wq i : ℝ) : EReal))
        (fun i => ((bq i : ℝ) : EReal)) (fun i => ((wk i : ℝ) : EReal)) (fun i => ((bk i : ℝ) : EReal)) (ix2 b q)
      = ((∑ k : Fin 2048, Real.exp (scoreR (projR x wq bq) (projR x wk bk) b q k - M) : ℝ) : EReal) := by
  rw [Read.val_main_v23_apply, Read.val_main_cst_2_apply]
  simp only [idx23_eq, exp_v22 x wq bq wk bk b q M hM, Ideal.ofBits_def, Ideal.ofBits_zero_f32, zero_add, coe_sum]

/-- The softmax weight of key `k`. -/
theorem attn_v26 (b : Fin 8) (q : Fin 2048) (M : ℝ)
    (hM : Read.val_main_v18 (F := Ideal) (fun i => ((x i : ℝ) : EReal)) (fun i => ((wq i : ℝ) : EReal))
        (fun i => ((bq i : ℝ) : EReal)) (fun i => ((wk i : ℝ) : EReal)) (fun i => ((bk i : ℝ) : EReal)) (ix2 b q) = ((M : ℝ) : EReal)) (k : Fin 2048) :
    Read.val_main_v26 (F := Ideal) (fun i => ((x i : ℝ) : EReal)) (fun i => ((wq i : ℝ) : EReal))
        (fun i => ((bq i : ℝ) : EReal)) (fun i => ((wk i : ℝ) : EReal)) (fun i => ((bk i : ℝ) : EReal)) (ix3 b q k)
      = ((Real.exp (scoreR (projR x wq bq) (projR x wk bk) b q k - M)
          / ∑ k' : Fin 2048, Real.exp (scoreR (projR x wq bq) (projR x wk bk) b q k' - M) : ℝ) : EReal) := by
  rw [Read.val_main_v26_apply, Read.val_main_v25_apply, Read.val_main_v24_apply, idx2425_eq, sum_v23 x wq bq wk bk b q M hM,
    exp_v22 x wq bq wk bk b q M hM]
  simp only [Ideal.hostDivf_def]
  exact div_coe_coe _ _ (ne_of_gt (sum_exp_pos _ M))

end Stages

/-- The reference's result on arrays of reals is `G` of them. -/
theorem ref_real (x : SA.Idx → ℝ) (wq : SW.Idx → ℝ) (bq : SB.Idx → ℝ) (wk : SW.Idx → ℝ) (bk : SB.Idx → ℝ)
    (wv : SW.Idx → ℝ) (bv : SB.Idx → ℝ) :
    Cert.ReferenceIdeal.Read.val_main_v27 (F := Ideal) (fun i => ((x i : ℝ) : EReal)) (fun i => ((wq i : ℝ) : EReal))
        (fun i => ((bq i : ℝ) : EReal)) (fun i => ((wk i : ℝ) : EReal)) (fun i => ((bk i : ℝ) : EReal))
        (fun i => ((wv i : ℝ) : EReal)) (fun i => ((bv i : ℝ) : EReal))
      = G x wq bq wk bk wv bv := by
  funext i
  obtain ⟨b, q, d, rfl⟩ : ∃ b q d, i = ix3 b q d := ⟨i 0, i 1, i 2, eq_ix3 i⟩
  obtain ⟨M, hM⟩ := max_v18 x wq bq wk bk b q
  rw [Read.val_main_v27_apply, dense_v11]
  simp only [lidx27_eq, ridx27_eq, attn_v26 x wq bq wk bk b q M hM, ← EReal.coe_mul, coe_sum]
  show _ = ((attnRow (fun e => projR x wq bq (ix3 b q e) * (1 / 16)) (projR x wk bk) (projR x wv bv) b d : ℝ) : EReal)
  rw [softmax_quot (fun k => scoreR (projR x wq bq) (projR x wk bk) b q k) (fun k => projR x wv bv (ix3 b k d)) M]
  have hl : ∀ k : Fin 2048, scoreR (projR x wq bq) (projR x wk bk) b q k
      = logit (fun e => projR x wq bq (ix3 b q e) * (1 / 16)) (projR x wk bk) b k := fun k => by
    unfold scoreR logit
    rw [Finset.sum_div]
    exact Finset.sum_congr rfl fun e _ => by ring
  simp only [hl]
  rfl

end Cert.Attn

end
-- ==== Proof.ProjBlock.lean ====
/-
  The projection kernel's three output blocks at real inputs: a block of 1024 rows of x times a weight matrix
  plus the bias row, the query projection scaled by 1/16.
-/
import proofs.«421883_j63634235458009_3_alg».proof.Proof.Gen.KernelIdeal.Frame
import proofs.«421883_j63634235458009_3_alg».proof.Proof.Spec
import proofs.«421883_j63634235458009_3_alg».proof.Proof.IdealCoe
import proofs.«421883_j63634235458009_3_alg».proof.Proof.Consts
import Idealize.ShloMosaic.Lib.Pipeline.Value
import Idealize.ShloMosaic.Lib.ValueLayout
import Idealize.ShloMosaic.PureOps.Ideal.Laws

noncomputable section

open scoped BigOperators

namespace Cert.KernelIdeal.Proj

open Idealize.ShloMosaic Idealize.ShloMosaic.ValueIdx Cert.KernelIdeal Cert.KernelIdeal.Gen Cert.Attn

/-- One block of a dense layer over the reals: rows of `x` times `w` plus `b`. -/
def denseBlk (x : S1024x256.Idx → ℝ) (w : S256x256.Idx → ℝ) (b : S256.Idx → ℝ) : S1024x256.Idx → ℝ := fun y =>
  (∑ f : Fin 256, x (ix2 (y 0) f) * w (ix2 f (y 1))) + b (ix1 (y 1))

/-- The two-axis zero offset, however it is spelt. -/
theorem zero_off2 : (![0, 0] : Fin 2 → Nat) = fun _ => 0 := funext fun a => by fin_cases a <;> rfl
/-- The one-axis zero offset. -/
theorem zero_off1 : (![0] : Fin 1 → Nat) = fun _ => 0 := funext fun a => by fin_cases a <;> rfl

/-! ## The product's operand indices: output (r, d) and contraction index k meet the operands at (r, k) and (k, d) -/

theorem lhs_axis0 (i : S1024x256.Idx) (q : dot_S1024x256_S256x256_S1024x256_1_0_0_1_n_n.contr.Idx) :
    (dot_S1024x256_S256x256_S1024x256_1_0_0_1_n_n.lhsIdx i q 0).val = (i 0).val := by
  unfold DotDims.lhsIdx
  rw [dif_neg (show ¬(0 : Fin S1024x256.rank) ∈ dot_S1024x256_S256x256_S1024x256_1_0_0_1_n_n.lhsBatch by decide), dif_pos (show (0 : Fin S1024x256.rank) ∈ dot_S1024x256_S256x256_S1024x256_1_0_0_1_n_n.lhsNonContracting by decide)]
  rfl
theorem lhs_axis1 (i : S1024x256.Idx) (q : dot_S1024x256_S256x256_S1024x256_1_0_0_1_n_n.contr.Idx) :
    (dot_S1024x256_S256x256_S1024x256_1_0_0_1_n_n.lhsIdx i q 1).val = (q ⟨0, by decide⟩).val :=
  dot_S1024x256_S256x256_S1024x256_1_0_0_1_n_n.lhsIdx_val_of_single rfl i q
theorem rhs_axis0 (i : S1024x256.Idx) (q : dot_S1024x256_S256x256_S1024x256_1_0_0_1_n_n.contr.Idx) :
    (dot_S1024x256_S256x256_S1024x256_1_0_0_1_n_n.rhsIdx i q 0).val = (q ⟨0, by decide⟩).val :=
  dot_S1024x256_S256x256_S1024x256_1_0_0_1_n_n.rhsIdx_val_of_single rfl i q
theorem rhs_axis1 (i : S1024x256.Idx) (q : dot_S1024x256_S256x256_S1024x256_1_0_0_1_n_n.contr.Idx) :
    (dot_S1024x256_S256x256_S1024x256_1_0_0_1_n_n.rhsIdx i q 1).val = (i 1).val := by
  unfold DotDims.rhsIdx
  rw [dif_neg (show ¬(1 : Fin S256x256.rank) ∈ dot_S1024x256_S256x256_S1024x256_1_0_0_1_n_n.rhsBatch by decide), dif_pos (show (1 : Fin S256x256.rank) ∈ dot_S1024x256_S256x256_S1024x256_1_0_0_1_n_n.rhsNonContracting by decide)]
  rfl

/-- The matrix product into a zero accumulator, at (r, d): the sum over the 256 features. -/
theorem matmul_at (A : FVec Ideal S1024x256 .bf16) (B : FVec Ideal S256x256 .bf16) (r : Fin 1024) (d : Fin 256) :
    FloatOps.matmul dot_S1024x256_S256x256_S1024x256_1_0_0_1_n_n none A B (constant (F := Ideal) S1024x256 .f32 0x00000000#32) (ix2 r d)
      = ∑ k : Fin 256, A (ix2 r k) * B (ix2 k d) := by
  rw [Ideal.matmul_constant_zero_apply, ← Equiv.sum_comp (ValueIdx.contrEquiv1 dot_S1024x256_S256x256_S1024x256_1_0_0_1_n_n 256 rfl rfl).symm]
  refine Finset.sum_congr rfl fun k _ => ?_
  have hk := ValueIdx.contrEquiv1_symm_val dot_S1024x256_S256x256_S1024x256_1_0_0_1_n_n 256 rfl rfl k
  have el : dot_S1024x256_S256x256_S1024x256_1_0_0_1_n_n.lhsIdx (ix2 r d) ((ValueIdx.contrEquiv1 dot_S1024x256_S256x256_S1024x256_1_0_0_1_n_n 256 rfl rfl).symm k) = ix2 r k := funext fun a => Fin.ext (by
    match a with
    | ⟨0, _⟩ => exact lhs_axis0 _ _
    | ⟨1, _⟩ => exact (lhs_axis1 _ _).trans hk)
  have er : dot_S1024x256_S256x256_S1024x256_1_0_0_1_n_n.rhsIdx (ix2 r d) ((ValueIdx.contrEquiv1 dot_S1024x256_S256x256_S1024x256_1_0_0_1_n_n 256 rfl rfl).symm k) = ix2 k d := funext fun a => Fin.ext (by
    match a with
    | ⟨0, _⟩ => exact (rhs_axis0 _ _).trans hk
    | ⟨1, _⟩ => exact rhs_axis1 _ _)
  rw [el, er]

/-- The bias row laid over the 1024 rows, at (r, d): the bias at d. -/
theorem bias_at (B : Vec Ideal S256 .f32) (h1 : S256.ShapeCasts S1x256) (h2 : S1x256.Broadcasts S1024x256) (r : Fin 1024) (d : Fin 256) :
    broadcastTo S1024x256 (shapeCast S1x256 B h1) h2 (ix2 r d) = B (ix1 d) := by
  rw [broadcastTo_1b_ab_apply, shapeCast_a_1a_apply]

/-- The dense layer of the block before any scale, at (r, d), as the kernel computes it. -/
theorem dense_at (X : Vec Ideal S1024x256 .f32) (W : Vec Ideal S256x256 .f32) (B : Vec Ideal S256 .f32)
    (hc : S1024x256.ShapeCasts S1024x256) (hb : FTy.bits .bf16 < FTy.bits .f32)
    (h1 : S256.ShapeCasts S1x256) (h2 : S1x256.Broadcasts S1024x256) (r : Fin 1024) (d : Fin 256) :
    FloatOps.matmul dot_S1024x256_S256x256_S1024x256_1_0_0_1_n_n none (truncf (F := Ideal) .bf16 (shapeCast S1024x256 X hc) hb) (truncf (F := Ideal) .bf16 W hb)
        (constant (F := Ideal) S1024x256 .f32 0x00000000#32) (ix2 r d)
      + broadcastTo S1024x256 (shapeCast S1x256 B h1) h2 (ix2 r d)
      = (∑ k : Fin 256, X (ix2 r k) * W (ix2 k d)) + B (ix1 d) := by
  rw [matmul_at, bias_at, shapeCast_self]
  rfl

/-- The dense layer on coerced reals is the coerced dense layer. -/
theorem dense_coe (x : S1024x256.Idx → ℝ) (w : S256x256.Idx → ℝ) (b : S256.Idx → ℝ) (r : Fin 1024) (d : Fin 256) :
    (∑ k : Fin 256, ((x (ix2 r k) : ℝ) : EReal) * ((w (ix2 k d) : ℝ) : EReal)) + ((b (ix1 d) : ℝ) : EReal)
      = ((denseBlk x w b (ix2 r d) : ℝ) : EReal) := by
  simp only [← EReal.coe_mul]
  rw [coe_sum, ← EReal.coe_add]
  rfl

theorem out7_real (x : S1024x256.Idx → ℝ) (w : S256x256.Idx → ℝ) (b : S256.Idx → ℝ)
    (x3 : Vec Ideal S256x256 .f32) (x4 : Vec Ideal S256 .f32) (x5 : Vec Ideal S256x256 .f32) (x6 : Vec Ideal S256 .f32) :
    out0_7 (F := Ideal) (fun y => ((x y : ℝ) : EReal)) (fun i => ((w i : ℝ) : EReal)) (fun i => ((b i : ℝ) : EReal)) x3 x4 x5 x6
      = fun y => ((denseBlk x w b y * (1 / 16) : ℝ) : EReal) := by
  unfold out0_7
  rw [View.canon_unit_zero zero_off2]
  simp only [View.ld_unit_zero (S := S1024x256) zero_off2, View.ld_unit_zero (S := S256x256) zero_off2, View.ld_unit_zero (S := S256) zero_off1]
  funext y
  obtain ⟨r, d, rfl⟩ : ∃ (r : Fin 1024) (d : Fin 256), y = ix2 r d := ⟨y 0, y 1, eq_ix2 y⟩
  unfold k0_pay2 k0_pay1
  refine (congrArg (· * Ideal.ofBits .f32 0x3D800000#32) (dense_at _ _ _ _ _ _ _ r d)).trans ?_
  rw [ofBits_sixteenth]
  show ((∑ k : Fin 256, ((x (ix2 r k) : ℝ) : EReal) * ((w (ix2 k d) : ℝ) : EReal)) + ((b (ix1 d) : ℝ) : EReal)) * _ = _
  rw [dense_coe, ← EReal.coe_mul]

theorem out8_real (x : S1024x256.Idx → ℝ) (w : S256x256.Idx → ℝ) (b : S256.Idx → ℝ)
    (x1 : Vec Ideal S256x256 .f32) (x2 : Vec Ideal S256 .f32) (x5 : Vec Ideal S256x256 .f32) (x6 : Vec Ideal S256 .f32) :
    out0_8 (F := Ideal) (fun y => ((x y : ℝ) : EReal)) x1 x2 (fun i => ((w i : ℝ) : EReal)) (fun i => ((b i : ℝ) : EReal)) x5 x6
      = fun y => ((denseBlk x w b y : ℝ) : EReal) := by
  unfold out0_8
  rw [View.canon_unit_zero zero_off2]
  simp only [View.ld_unit_zero (S := S1024x256) zero_off2, View.ld_unit_zero (S := S256x256) zero_off2, View.ld_unit_zero (S := S256) zero_off1]
  funext y
  obtain ⟨r, d, rfl⟩ : ∃ (r : Fin 1024) (d : Fin 256), y = ix2 r d := ⟨y 0, y 1, eq_ix2 y⟩
  unfold k0_pay3 k0_pay1
  refine (dense_at _ _ _ _ _ _ _ r d).trans ?_
  exact dense_coe x w b r d

theorem out9_real (x : S1024x256.Idx → ℝ) (w : S256x256.Idx → ℝ) (b : S256.Idx → ℝ)
    (x1 : Vec Ideal S256x256 .f32) (x2 : Vec Ideal S256 .f32) (x3 : Vec Ideal S256x256 .f32) (x4 : Vec Ideal S256 .f32) :
    out0_9 (F := Ideal) (fun y => ((x y : ℝ) : EReal)) x1 x2 x3 x4 (fun i => ((w i : ℝ) : EReal)) (fun i => ((b i : ℝ) : EReal))
      = fun y => ((denseBlk x w b y : ℝ) : EReal) := by
  unfold out0_9
  rw [View.canon_unit_zero zero_off2]
  simp only [View.ld_unit_zero (S := S1024x256) zero_off2, View.ld_unit_zero (S := S256x256) zero_off2, View.ld_unit_zero (S := S256) zero_off1]
  funext y
  obtain ⟨r, d, rfl⟩ : ∃ (r : Fin 1024) (d : Fin 256), y = ix2 r d := ⟨y 0, y 1, eq_ix2 y⟩
  unfold k0_pay4 k0_pay1
  refine (dense_at _ _ _ _ _ _ _ r d).trans ?_
  exact dense_coe x w b r d

end Cert.KernelIdeal.Proj

end
-- ==== Proof.ProjArr.lean ====
/-
  From the projection kernel's blocks to the three arrays the attention kernel reads: sixteen blocks of 1024 rows tile
  each [16384, 256] result, and the host reshapes between [8, 2048, 256] and [16384, 256] keep row-major position
  (row 2048 b + s of the flat array is (b, s)).
-/
import proofs.«421883_j63634235458009_3_alg».proof.Proof.ProjBlock
import Idealize.ShloMosaic.Lib.StableHlo.Run
import Idealize.ShloMosaic.Lib.Tactic

noncomputable section

open scoped BigOperators

namespace Cert.KernelIdeal.Proj

open Idealize.ShloMosaic Idealize.ShloMosaic.TcCoe Idealize.ShloMosaic.ValueIdx Idealize.SL.Sem
open Cert.KernelIdeal Cert.KernelIdeal.Gen Cert.Attn

variable (m : (ℓ : Loc nD τ sig) → Buf (Elt Ideal) ℓ) (ρ : Dev nD → PrngReg)

/-- The [8, 2048, 256] activations read as 16384 flat rows: row 2048 b + s is (b, s). -/
def flat (x : SA.Idx → ℝ) : S16384x256.Idx → ℝ := shapeCast S16384x256 x shapeCasts_S8x2048x256_S16384x256

/-- The dense layer over the flat rows. -/
def projFlat (x : SA.Idx → ℝ) (w : SW.Idx → ℝ) (b : SB.Idx → ℝ) : S16384x256.Idx → ℝ := fun i =>
  (∑ f : Fin 256, flat x (ix2 (i 0) f) * w (ix2 f (i 1))) + b (ix1 (i 1))

/-- Rows 1024 n … 1024 n + 1023 of the flat activations. -/
def rowBlk (x : SA.Idx → ℝ) (n : ℕ) (hn : n < 16) : S1024x256.Idx → ℝ := fun y =>
  flat x (ix2 (⟨1024 * n + (y 0).val, by have := idx2_lt0 y; omega⟩ : Fin 16384) (y 1))

/-- The block index maps over the sixteen points: the activations' and the three results' blocks move down the rows
    with the point, the weights' and biases' stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0 ∧ win0_2.index t (0 : Fin 1) = 0
    ∧ win0_3.index t (0 : Fin 2) = 0 ∧ win0_3.index t (1 : Fin 2) = 0 ∧ win0_4.index t (0 : Fin 1) = 0
    ∧ win0_5.index t (0 : Fin 2) = 0 ∧ win0_5.index t (1 : Fin 2) = 0 ∧ win0_6.index t (0 : Fin 1) = 0
    ∧ win0_7.index t (0 : Fin 2) = t.val ∧ win0_7.index t (1 : Fin 2) = 0
    ∧ win0_8.index t (0 : Fin 2) = t.val ∧ win0_8.index t (1 : Fin 2) = 0
    ∧ win0_9.index t (0 : Fin 2) = t.val ∧ win0_9.index t (1 : Fin 2) = 0 :=
  (by decide +kernel : ∀ t : Fin grid0.N, _)

theorem lt16 (t : Fin cfg0.N) : t.val < 16 := lt_of_lt_of_eq t.isLt (show cfg0.N = 16 from N_0)

/-! ## The region's entry contents -/

/-- The flat activations at the region's entry: the host reshape of the launched argument. -/
theorem entry_x (c : Dev nD) (x : SA.Idx → ℝ)
    (hx : (m ((c : Thread nD τ).loc main_arg0) : S8x2048x256.Idx → EReal) = fun i => ((x i : ℝ) : EReal)) :
    (V1 m ρ c main_v0 : S16384x256.Idx → EReal) = fun i => ((flat x i : ℝ) : EReal) := by
  show StableHlo.after hostOps0 (W0 m ρ c) (Proc.devRef .tc main_v0) = _
  after_results
  show (fun i => shapeCast S16384x256 (m ((c : Thread nD τ).loc main_arg0) : S8x2048x256.Idx → EReal) shapeCasts_S8x2048x256_S16384x256 i) = _
  rw [hx]
  rfl

/-- A block of rows of the flat dense layer is the dense layer of that block of rows. -/
theorem denseBlk_rowBlk (x : SA.Idx → ℝ) (w : SW.Idx → ℝ) (b : SB.Idx → ℝ) (n : ℕ) (hn : n < 16) (y : S1024x256.Idx)
    (i : S16384x256.Idx) (h0 : (i 0).val = 1024 * n + (y 0).val) (h1 : (i 1).val = (y 1).val) :
    denseBlk (rowBlk x n hn) w b y = projFlat x w b i := by
  have hr : ∀ p : Fin 1024, 1024 * n + p.val < 16384 := fun p => by have := p.isLt; omega
  obtain ⟨r, d, rfl⟩ : ∃ (r : Fin 16384) (d : Fin 256), i = ix2 r d := ⟨i 0, i 1, eq_ix2 i⟩
  obtain ⟨p, q, rfl⟩ : ∃ (p : Fin 1024) (q : Fin 256), y = ix2 p q := ⟨y 0, y 1, eq_ix2 y⟩
  obtain rfl : d = q := Fin.ext h1
  obtain rfl : r = ⟨1024 * n + p.val, hr p⟩ := Fin.ext h0
  rfl

/-- Flat row 2048 b + s is (b, s). -/
theorem flat_apply (x : SA.Idx → ℝ) (bb : Fin 8) (s : Fin 2048) (f : Fin 256) (r : Fin 16384)
    (hr : r.val = 2048 * bb.val + s.val) : flat x (ix2 r f) = x (ix3 bb s f) := by
  unfold flat
  refine shapeCast_apply x _ (ix2 r f) (ix3 bb s f) ?_
  rw [Shape.rowMajor_val_two, Shape.rowMajor_val_three]
  show (bb.val * 2048 + s.val) * 256 + f.val = r.val * 256 + f.val
  rw [hr]; ring

/-- Reading the flat dense layer (after any function of the entries) back as [8, 2048, 256] gives the dense layer. -/
theorem unflatten (g : ℝ → ℝ) (x : SA.Idx → ℝ) (w : SW.Idx → ℝ) (b : SB.Idx → ℝ) :
    shapeCast S8x2048x256 (fun i : S16384x256.Idx => ((g (projFlat x w b i) : ℝ) : EReal)) shapeCasts_S16384x256_S8x2048x256
      = fun i => ((g (projR x w b i) : ℝ) : EReal) := by
  funext i
  obtain ⟨bb, s, d, rfl⟩ : ∃ (bb : Fin 8) (s : Fin 2048) (d : Fin 256), i = ix3 bb s d := ⟨i 0, i 1, i 2, eq_ix3 i⟩
  have hr : 2048 * bb.val + s.val < 16384 := by have := bb.isLt; have := s.isLt; omega
  refine (shapeCast_apply _ _ (ix3 bb s d) (ix2 (⟨2048 * bb.val + s.val, hr⟩ : Fin 16384) d) ?_).trans ?_
  · rw [Shape.rowMajor_val_two, Shape.rowMajor_val_three]
    show (2048 * bb.val + s.val) * 256 + d.val = (bb.val * 2048 + s.val) * 256 + d.val
    ring
  · show ((g ((∑ f : Fin 256, flat x (ix2 (⟨2048 * bb.val + s.val, hr⟩ : Fin 16384) f) * w (ix2 f d)) + b (ix1 d)) : ℝ) : EReal)
      = ((g ((∑ f : Fin 256, x (ix3 bb s f) * w (ix2 f d)) + b (ix1 d)) : ℝ) : EReal)
    simp only [flat_apply x bb s _ ⟨2048 * bb.val + s.val, hr⟩ rfl]

/-- The activations' block at point t is rows 1024 t … 1024 t + 1023 of the flat activations. -/
theorem iblk_x (c : Dev nD) (x : SA.Idx → ℝ)
    (hx : (m ((c : Thread nD τ).loc main_arg0) : S8x2048x256.Idx → EReal) = fun i => ((x i : ℝ) : EReal)) (t : Fin cfg0.N) :
    (iblk0 (V1 m ρ) c 0 t : S1024x256.Idx → EReal) = fun y => ((rowBlk x t.val (lt16 t) y : ℝ) : EReal) := by
  funext y
  show (V1 m ρ c main_v0 : S16384x256.Idx → EReal) (((cfg0.win 0).blk t).view.emb y) = _
  rw [entry_x m ρ c x hx]
  show ((flat x _ : ℝ) : EReal) = ((flat x _ : ℝ) : EReal)
  congr 2
  funext a
  apply Fin.ext
  obtain ⟨e0, e1, -⟩ := idx_facts t
  match a with
  | ⟨0, _⟩ => show win0_0.index t (0 : Fin 2) * 1024 + 1 * (y 0).val = 1024 * t.val + (y 0).val; rw [e0]; omega
  | ⟨1, _⟩ => show win0_0.index t (1 : Fin 2) * 256 + 1 * (y 1).val = (y 1).val; rw [e1]; omega

/-! ## The query projection: weights in argument 1, bias in argument 2, result blocks in window 7 -/

/-- The host reshape before the region leaves the weight and the bias as launched. -/
theorem entry_arg1 (c : Dev nD) : (V1 m ρ c main_arg1 : S256x256.Idx → EReal) = m ((c : Thread nD τ).loc main_arg1) := by
  show StableHlo.after hostOps0 (W0 m ρ c) (Proc.devRef .tc main_arg1) = _
  after_results
theorem entry_arg2 (c : Dev nD) : (V1 m ρ c main_arg2 : S256.Idx → EReal) = m ((c : Thread nD τ).loc main_arg2) := by
  show StableHlo.after hostOps0 (W0 m ρ c) (Proc.devRef .tc main_arg2) = _
  after_results

/-- The weight's block at every point is the whole weight matrix. -/
theorem iblk_w1 (c : Dev nD) (w : SW.Idx → ℝ)
    (hw : (m ((c : Thread nD τ).loc main_arg1) : S256x256.Idx → EReal) = fun i => ((w i : ℝ) : EReal)) (t : Fin cfg0.N) :
    (iblk0 (V1 m ρ) c 1 t : S256x256.Idx → EReal) = fun i => ((w i : ℝ) : EReal) := by
  funext y
  show (V1 m ρ c main_arg1 : S256x256.Idx → EReal) (((cfg0.win 1).blk t).view.emb y) = _
  rw [entry_arg1 m ρ c, hw]
  show ((w _ : ℝ) : EReal) = ((w _ : ℝ) : EReal)
  congr 2
  funext a
  apply Fin.ext
  obtain ⟨-, -, e0, e1, -⟩ := idx_facts t
  match a with
  | ⟨0, _⟩ => show win0_1.index t (0 : Fin 2) * 256 + 1 * (y 0).val = (y 0).val; rw [e0]; omega
  | ⟨1, _⟩ => show win0_1.index t (1 : Fin 2) * 256 + 1 * (y 1).val = (y 1).val; rw [e1]; omega

/-- The bias's block at every point is the whole bias row. -/
theorem iblk_b2 (c : Dev nD) (b : SB.Idx → ℝ)
    (hb : (m ((c : Thread nD τ).loc main_arg2) : S256.Idx → EReal) = fun i => ((b i : ℝ) : EReal)) (t : Fin cfg0.N) :
    (iblk0 (V1 m ρ) c 2 t : S256.Idx → EReal) = fun i => ((b i : ℝ) : EReal) := by
  funext y
  show (V1 m ρ c main_arg2 : S256.Idx → EReal) (((cfg0.win 2).blk t).view.emb y) = _
  rw [entry_arg2 m ρ c, hb]
  show ((b _ : ℝ) : EReal) = ((b _ : ℝ) : EReal)
  congr 2
  funext a
  apply Fin.ext
  obtain ⟨-, -, -, -, e0, -⟩ := idx_facts t
  match a with
  | ⟨0, _⟩ => show win0_2.index t (0 : Fin 1) * 256 + 1 * (y 0).val = (y 0).val; rw [e0]; omega

/-- What point t writes back is block t of the flat dense layer scaled by 1/16. -/
theorem flushed7_eq (c : Dev nD) (x : SA.Idx → ℝ) (w : SW.Idx → ℝ) (b : SB.Idx → ℝ)
    (hx : (m ((c : Thread nD τ).loc main_arg0) : S8x2048x256.Idx → EReal) = fun i => ((x i : ℝ) : EReal))
    (hw : (m ((c : Thread nD τ).loc main_arg1) : S256x256.Idx → EReal) = fun i => ((w i : ℝ) : EReal))
    (hb : (m ((c : Thread nD τ).loc main_arg2) : S256.Idx → EReal) = fun i => ((b i : ℝ) : EReal)) (t : Fin cfg0.N) :
    (dat0 (V1 m ρ) c).flushed 7 t
      = ((cfg0.win 7).blk t).view.read (Elt Ideal) (fun i : S16384x256.Idx => ((projFlat x w b i * (1 / 16) : ℝ) : EReal)) := by
  show (cfg0.win 7).cut (grid0.coords t) ((dat0 (V1 m ρ) c).after 7 t) = _
  rw [after0_7]
  rw [iblk_x m ρ c x hx t, iblk_w1 m ρ c w hw t, iblk_b2 m ρ c b hb t]
  rw [out7_real]
  funext y
  obtain ⟨-, -, -, -, -, -, -, -, -, -, -, e0, e1, -⟩ := idx_facts t
  show ((denseBlk (rowBlk x t.val (lt16 t)) w b (y : S1024x256.Idx) * (1 / 16) : ℝ) : EReal)
    = ((projFlat x w b (((cfg0.win 7).blk t).view.emb y) * (1 / 16) : ℝ) : EReal)
  refine congrArg (fun r : ℝ => ((r * (1 / 16) : ℝ) : EReal)) (denseBlk_rowBlk x w b t.val (lt16 t) y _ ?_ ?_)
  · show win0_7.index t (0 : Fin 2) * 1024 + 1 * (y 0).val = 1024 * t.val + (y 0).val
    rw [e0]; omega
  · show win0_7.index t (1 : Fin 2) * 256 + 1 * (y 1).val = (y 1).val
    rw [e1]; omega

/-- An index of the result array is in point t's block iff each coordinate is in the block's range on its axis. -/
theorem mem_blk7 (t : Fin cfg0.N) (i : S16384x256.Idx) :
    i ∈ ((cfg0.win 7).blk t).view.set ↔ ∀ a : Fin 2, win0_7.index t a * S1024x256.size a ≤ (i a).val
      ∧ (i a).val < win0_7.index t a * S1024x256.size a + S1024x256.size a := by
  show i ∈ ((View.whole main_v1_0).slice (win0_7.rect t)).set ↔ _
  rw [View.set_slice_whole, Rect.mem_set_unit]
  exact Iff.rfl

/-- Row r of the result array is in block r / 1024. -/
theorem cover7 (i : S16384x256.Idx) :
    ∃ t : Fin cfg0.N, (cfg0.win 7).flush t = true ∧ i ∈ ((cfg0.win 7).blk t).view.set := by
  have hi0 : (i 0).val < 16384 := idx2_lt0 i
  have hi1 : (i 1).val < 256 := idx2_lt1 i
  have hN : cfg0.N = 16 := N_0
  refine ⟨⟨(i 0).val / 1024, by rw [hN]; omega⟩, flush0_7 _, ?_⟩
  rw [mem_blk7]
  obtain ⟨-, -, -, -, -, -, -, -, -, -, -, e0, e1, -⟩ := idx_facts ⟨(i 0).val / 1024, by rw [hN]; omega⟩
  intro a
  match a with
  | ⟨0, _⟩ =>
    show win0_7.index _ (0 : Fin 2) * 1024 ≤ (i 0).val ∧ (i 0).val < win0_7.index _ (0 : Fin 2) * 1024 + 1024
    rw [e0]; show (i 0).val / 1024 * 1024 ≤ (i 0).val ∧ (i 0).val < (i 0).val / 1024 * 1024 + 1024; omega
  | ⟨1, _⟩ =>
    show win0_7.index _ (1 : Fin 2) * 256 ≤ (i 1).val ∧ (i 1).val < win0_7.index _ (1 : Fin 2) * 256 + 256
    rw [e1]; omega

/-- So the result array ends at the flat dense layer scaled by 1/16: its sixteen blocks tile it. -/
theorem final7 (c : Dev nD) (x : SA.Idx → ℝ) (w : SW.Idx → ℝ) (b : SB.Idx → ℝ)
    (hx : (m ((c : Thread nD τ).loc main_arg0) : S8x2048x256.Idx → EReal) = fun i => ((x i : ℝ) : EReal))
    (hw : (m ((c : Thread nD τ).loc main_arg1) : S256x256.Idx → EReal) = fun i => ((w i : ℝ) : EReal))
    (hb : (m ((c : Thread nD τ).loc main_arg2) : S256.Idx → EReal) = fun i => ((b i : ℝ) : EReal)) :
    ((dat0 (V1 m ρ) c).arrAt 7 cfg0.N : S16384x256.Idx → EReal) = fun i => ((projFlat x w b i * (1 / 16) : ℝ) : EReal) :=
  (dat0 (V1 m ρ) c).arrAt_eq_of_cover 7 _ (fun t _ => flushed7_eq m ρ c x w b hx hw hb t) cover7

/-- The attention kernel's operand is the host reshape of that array. -/
theorem chain7 (c : Dev nD) : (V3 m ρ c main_v2 : S8x2048x256.Idx → EReal)
    = shapeCast S8x2048x256 ((dat0 (V1 m ρ) c).arrAt 7 cfg0.N : S16384x256.Idx → EReal) shapeCasts_S16384x256_S8x2048x256 := by
  show StableHlo.after hostOps1 (W2 m ρ c) (Proc.devRef .tc main_v2) = _
  after_results
  rw [show W2 m ρ c (Proc.tc.devRef main_v1_0) = _ from W2_arr m ρ c 7]
  rfl

/-! ## The key projection: weights in argument 3, bias in argument 4, result blocks in window 8 -/

/-- The host reshape before the region leaves the weight and the bias as launched. -/
theorem entry_arg3 (c : Dev nD) : (V1 m ρ c main_arg3 : S256x256.Idx → EReal) = m ((c : Thread nD τ).loc main_arg3) := by
  show StableHlo.after hostOps0 (W0 m ρ c) (Proc.devRef .tc main_arg3) = _
  after_results
theorem entry_arg4 (c : Dev nD) : (V1 m ρ c main_arg4 : S256.Idx → EReal) = m ((c : Thread nD τ).loc main_arg4) := by
  show StableHlo.after hostOps0 (W0 m ρ c) (Proc.devRef .tc main_arg4) = _
  after_results

/-- The weight's block at every point is the whole weight matrix. -/
theorem iblk_w3 (c : Dev nD) (w : SW.Idx → ℝ)
    (hw : (m ((c : Thread nD τ).loc main_arg3) : S256x256.Idx → EReal) = fun i => ((w i : ℝ) : EReal)) (t : Fin cfg0.N) :
    (iblk0 (V1 m ρ) c 3 t : S256x256.Idx → EReal) = fun i => ((w i : ℝ) : EReal) := by
  funext y
  show (V1 m ρ c main_arg3 : S256x256.Idx → EReal) (((cfg0.win 3).blk t).view.emb y) = _
  rw [entry_arg3 m ρ c, hw]
  show ((w _ : ℝ) : EReal) = ((w _ : ℝ) : EReal)
  congr 2
  funext a
  apply Fin.ext
  obtain ⟨-, -, -, -, -, e0, e1, -⟩ := idx_facts t
  match a with
  | ⟨0, _⟩ => show win0_3.index t (0 : Fin 2) * 256 + 1 * (y 0).val = (y 0).val; rw [e0]; omega
  | ⟨1, _⟩ => show win0_3.index t (1 : Fin 2) * 256 + 1 * (y 1).val = (y 1).val; rw [e1]; omega

/-- The bias's block at every point is the whole bias row. -/
theorem iblk_b4 (c : Dev nD) (b : SB.Idx → ℝ)
    (hb : (m ((c : Thread nD τ).loc main_arg4) : S256.Idx → EReal) = fun i => ((b i : ℝ) : EReal)) (t : Fin cfg0.N) :
    (iblk0 (V1 m ρ) c 4 t : S256.Idx → EReal) = fun i => ((b i : ℝ) : EReal) := by
  funext y
  show (V1 m ρ c main_arg4 : S256.Idx → EReal) (((cfg0.win 4).blk t).view.emb y) = _
  rw [entry_arg4 m ρ c, hb]
  show ((b _ : ℝ) : EReal) = ((b _ : ℝ) : EReal)
  congr 2
  funext a
  apply Fin.ext
  obtain ⟨-, -, -, -, -, -, -, e0, -⟩ := idx_facts t
  match a with
  | ⟨0, _⟩ => show win0_4.index t (0 : Fin 1) * 256 + 1 * (y 0).val = (y 0).val; rw [e0]; omega

/-- What point t writes back is block t of the flat dense layer. -/
theorem flushed8_eq (c : Dev nD) (x : SA.Idx → ℝ) (w : SW.Idx → ℝ) (b : SB.Idx → ℝ)
    (hx : (m ((c : Thread nD τ).loc main_arg0) : S8x2048x256.Idx → EReal) = fun i => ((x i : ℝ) : EReal))
    (hw : (m ((c : Thread nD τ).loc main_arg3) : S256x256.Idx → EReal) = fun i => ((w i : ℝ) : EReal))
    (hb : (m ((c : Thread nD τ).loc main_arg4) : S256.Idx → EReal) = fun i => ((b i : ℝ) : EReal)) (t : Fin cfg0.N) :
    (dat0 (V1 m ρ) c).flushed 8 t
      = ((cfg0.win 8).blk t).view.read (Elt Ideal) (fun i : S16384x256.Idx => ((projFlat x w b i : ℝ) : EReal)) := by
  show (cfg0.win 8).cut (grid0.coords t) ((dat0 (V1 m ρ) c).after 8 t) = _
  rw [after0_8]
  rw [iblk_x m ρ c x hx t, iblk_w3 m ρ c w hw t, iblk_b4 m ρ c b hb t]
  rw [out8_real]
  funext y
  obtain ⟨-, -, -, -, -, -, -, -, -, -, -, -, -, e0, e1, -⟩ := idx_facts t
  show ((denseBlk (rowBlk x t.val (lt16 t)) w b (y : S1024x256.Idx) : ℝ) : EReal)
    = ((projFlat x w b (((cfg0.win 8).blk t).view.emb y) : ℝ) : EReal)
  refine congrArg (fun r : ℝ => ((r : ℝ) : EReal)) (denseBlk_rowBlk x w b t.val (lt16 t) y _ ?_ ?_)
  · show win0_8.index t (0 : Fin 2) * 1024 + 1 * (y 0).val = 1024 * t.val + (y 0).val
    rw [e0]; omega
  · show win0_8.index t (1 : Fin 2) * 256 + 1 * (y 1).val = (y 1).val
    rw [e1]; omega

/-- An index of the result array is in point t's block iff each coordinate is in the block's range on its axis. -/
theorem mem_blk8 (t : Fin cfg0.N) (i : S16384x256.Idx) :
    i ∈ ((cfg0.win 8).blk t).view.set ↔ ∀ a : Fin 2, win0_8.index t a * S1024x256.size a ≤ (i a).val
      ∧ (i a).val < win0_8.index t a * S1024x256.size a + S1024x256.size a := by
  show i ∈ ((View.whole main_v1_1).slice (win0_8.rect t)).set ↔ _
  rw [View.set_slice_whole, Rect.mem_set_unit]
  exact Iff.rfl

/-- Row r of the result array is in block r / 1024. -/
theorem cover8 (i : S16384x256.Idx) :
    ∃ t : Fin cfg0.N, (cfg0.win 8).flush t = true ∧ i ∈ ((cfg0.win 8).blk t).view.set := by
  have hi0 : (i 0).val < 16384 := idx2_lt0 i
  have hi1 : (i 1).val < 256 := idx2_lt1 i
  have hN : cfg0.N = 16 := N_0
  refine ⟨⟨(i 0).val / 1024, by rw [hN]; omega⟩, flush0_8 _, ?_⟩
  rw [mem_blk8]
  obtain ⟨-, -, -, -, -, -, -, -, -, -, -, -, -, e0, e1, -⟩ := idx_facts ⟨(i 0).val / 1024, by rw [hN]; omega⟩
  intro a
  match a with
  | ⟨0, _⟩ =>
    show win0_8.index _ (0 : Fin 2) * 1024 ≤ (i 0).val ∧ (i 0).val < win0_8.index _ (0 : Fin 2) * 1024 + 1024
    rw [e0]; show (i 0).val / 1024 * 1024 ≤ (i 0).val ∧ (i 0).val < (i 0).val / 1024 * 1024 + 1024; omega
  | ⟨1, _⟩ =>
    show win0_8.index _ (1 : Fin 2) * 256 ≤ (i 1).val ∧ (i 1).val < win0_8.index _ (1 : Fin 2) * 256 + 256
    rw [e1]; omega

/-- So the result array ends at the flat dense layer: its sixteen blocks tile it. -/
theorem final8 (c : Dev nD) (x : SA.Idx → ℝ) (w : SW.Idx → ℝ) (b : SB.Idx → ℝ)
    (hx : (m ((c : Thread nD τ).loc main_arg0) : S8x2048x256.Idx → EReal) = fun i => ((x i : ℝ) : EReal))
    (hw : (m ((c : Thread nD τ).loc main_arg3) : S256x256.Idx → EReal) = fun i => ((w i : ℝ) : EReal))
    (hb : (m ((c : Thread nD τ).loc main_arg4) : S256.Idx → EReal) = fun i => ((b i : ℝ) : EReal)) :
    ((dat0 (V1 m ρ) c).arrAt 8 cfg0.N : S16384x256.Idx → EReal) = fun i => ((projFlat x w b i : ℝ) : EReal) :=
  (dat0 (V1 m ρ) c).arrAt_eq_of_cover 8 _ (fun t _ => flushed8_eq m ρ c x w b hx hw hb t) cover8

/-- The attention kernel's operand is the host reshape of that array. -/
theorem chain8 (c : Dev nD) : (V3 m ρ c main_v3 : S8x2048x256.Idx → EReal)
    = shapeCast S8x2048x256 ((dat0 (V1 m ρ) c).arrAt 8 cfg0.N : S16384x256.Idx → EReal) shapeCasts_S16384x256_S8x2048x256 := by
  show StableHlo.after hostOps1 (W2 m ρ c) (Proc.devRef .tc main_v3) = _
  after_results
  rw [show W2 m ρ c (Proc.tc.devRef main_v1_1) = _ from W2_arr m ρ c 8]
  rfl

/-! ## The value projection: weights in argument 5, bias in argument 6, result blocks in window 9 -/

/-- The host reshape before the region leaves the weight and the bias as launched. -/
theorem entry_arg5 (c : Dev nD) : (V1 m ρ c main_arg5 : S256x256.Idx → EReal) = m ((c : Thread nD τ).loc main_arg5) := by
  show StableHlo.after hostOps0 (W0 m ρ c) (Proc.devRef .tc main_arg5) = _
  after_results
theorem entry_arg6 (c : Dev nD) : (V1 m ρ c main_arg6 : S256.Idx → EReal) = m ((c : Thread nD τ).loc main_arg6) := by
  show StableHlo.after hostOps0 (W0 m ρ c) (Proc.devRef .tc main_arg6) = _
  after_results

/-- The weight's block at every point is the whole weight matrix. -/
theorem iblk_w5 (c : Dev nD) (w : SW.Idx → ℝ)
    (hw : (m ((c : Thread nD τ).loc main_arg5) : S256x256.Idx → EReal) = fun i => ((w i : ℝ) : EReal)) (t : Fin cfg0.N) :
    (iblk0 (V1 m ρ) c 5 t : S256x256.Idx → EReal) = fun i => ((w i : ℝ) : EReal) := by
  funext y
  show (V1 m ρ c main_arg5 : S256x256.Idx → EReal) (((cfg0.win 5).blk t).view.emb y) = _
  rw [entry_arg5 m ρ c, hw]
  show ((w _ : ℝ) : EReal) = ((w _ : ℝ) : EReal)
  congr 2
  funext a
  apply Fin.ext
  obtain ⟨-, -, -, -, -, -, -, -, e0, e1, -⟩ := idx_facts t
  match a with
  | ⟨0, _⟩ => show win0_5.index t (0 : Fin 2) * 256 + 1 * (y 0).val = (y 0).val; rw [e0]; omega
  | ⟨1, _⟩ => show win0_5.index t (1 : Fin 2) * 256 + 1 * (y 1).val = (y 1).val; rw [e1]; omega

/-- The bias's block at every point is the whole bias row. -/
theorem iblk_b6 (c : Dev nD) (b : SB.Idx → ℝ)
    (hb : (m ((c : Thread nD τ).loc main_arg6) : S256.Idx → EReal) = fun i => ((b i : ℝ) : EReal)) (t : Fin cfg0.N) :
    (iblk0 (V1 m ρ) c 6 t : S256.Idx → EReal) = fun i => ((b i : ℝ) : EReal) := by
  funext y
  show (V1 m ρ c main_arg6 : S256.Idx → EReal) (((cfg0.win 6).blk t).view.emb y) = _
  rw [entry_arg6 m ρ c, hb]
  show ((b _ : ℝ) : EReal) = ((b _ : ℝ) : EReal)
  congr 2
  funext a
  apply Fin.ext
  obtain ⟨-, -, -, -, -, -, -, -, -, -, e0, -⟩ := idx_facts t
  match a with
  | ⟨0, _⟩ => show win0_6.index t (0 : Fin 1) * 256 + 1 * (y 0).val = (y 0).val; rw [e0]; omega

/-- What point t writes back is block t of the flat dense layer. -/
theorem flushed9_eq (c : Dev nD) (x : SA.Idx → ℝ) (w : SW.Idx → ℝ) (b : SB.Idx → ℝ)
    (hx : (m ((c : Thread nD τ).loc main_arg0) : S8x2048x256.Idx → EReal) = fun i => ((x i : ℝ) : EReal))
    (hw : (m ((c : Thread nD τ).loc main_arg5) : S256x256.Idx → EReal) = fun i => ((w i : ℝ) : EReal))
    (hb : (m ((c : Thread nD τ).loc main_arg6) : S256.Idx → EReal) = fun i => ((b i : ℝ) : EReal)) (t : Fin cfg0.N) :
    (dat0 (V1 m ρ) c).flushed 9 t
      = ((cfg0.win 9).blk t).view.read (Elt Ideal) (fun i : S16384x256.Idx => ((projFlat x w b i : ℝ) : EReal)) := by
  show (cfg0.win 9).cut (grid0.coords t) ((dat0 (V1 m ρ) c).after 9 t) = _
  rw [after0_9]
  rw [iblk_x m ρ c x hx t, iblk_w5 m ρ c w hw t, iblk_b6 m ρ c b hb t]
  rw [out9_real]
  funext y
  obtain ⟨-, -, -, -, -, -, -, -, -, -, -, -, -, -, -, e0, e1⟩ := idx_facts t
  show ((denseBlk (rowBlk x t.val (lt16 t)) w b (y : S1024x256.Idx) : ℝ) : EReal)
    = ((projFlat x w b (((cfg0.win 9).blk t).view.emb y) : ℝ) : EReal)
  refine congrArg (fun r : ℝ => ((r : ℝ) : EReal)) (denseBlk_rowBlk x w b t.val (lt16 t) y _ ?_ ?_)
  · show win0_9.index t (0 : Fin 2) * 1024 + 1 * (y 0).val = 1024 * t.val + (y 0).val
    rw [e0]; omega
  · show win0_9.index t (1 : Fin 2) * 256 + 1 * (y 1).val = (y 1).val
    rw [e1]; omega

/-- An index of the result array is in point t's block iff each coordinate is in the block's range on its axis. -/
theorem mem_blk9 (t : Fin cfg0.N) (i : S16384x256.Idx) :
    i ∈ ((cfg0.win 9).blk t).view.set ↔ ∀ a : Fin 2, win0_9.index t a * S1024x256.size a ≤ (i a).val
      ∧ (i a).val < win0_9.index t a * S1024x256.size a + S1024x256.size a := by
  show i ∈ ((View.whole main_v1_2).slice (win0_9.rect t)).set ↔ _
  rw [View.set_slice_whole, Rect.mem_set_unit]
  exact Iff.rfl

/-- Row r of the result array is in block r / 1024. -/
theorem cover9 (i : S16384x256.Idx) :
    ∃ t : Fin cfg0.N, (cfg0.win 9).flush t = true ∧ i ∈ ((cfg0.win 9).blk t).view.set := by
  have hi0 : (i 0).val < 16384 := idx2_lt0 i
  have hi1 : (i 1).val < 256 := idx2_lt1 i
  have hN : cfg0.N = 16 := N_0
  refine ⟨⟨(i 0).val / 1024, by rw [hN]; omega⟩, flush0_9 _, ?_⟩
  rw [mem_blk9]
  obtain ⟨-, -, -, -, -, -, -, -, -, -, -, -, -, -, -, e0, e1⟩ := idx_facts ⟨(i 0).val / 1024, by rw [hN]; omega⟩
  intro a
  match a with
  | ⟨0, _⟩ =>
    show win0_9.index _ (0 : Fin 2) * 1024 ≤ (i 0).val ∧ (i 0).val < win0_9.index _ (0 : Fin 2) * 1024 + 1024
    rw [e0]; show (i 0).val / 1024 * 1024 ≤ (i 0).val ∧ (i 0).val < (i 0).val / 1024 * 1024 + 1024; omega
  | ⟨1, _⟩ =>
    show win0_9.index _ (1 : Fin 2) * 256 ≤ (i 1).val ∧ (i 1).val < win0_9.index _ (1 : Fin 2) * 256 + 256
    rw [e1]; omega

/-- So the result array ends at the flat dense layer: its sixteen blocks tile it. -/
theorem final9 (c : Dev nD) (x : SA.Idx → ℝ) (w : SW.Idx → ℝ) (b : SB.Idx → ℝ)
    (hx : (m ((c : Thread nD τ).loc main_arg0) : S8x2048x256.Idx → EReal) = fun i => ((x i : ℝ) : EReal))
    (hw : (m ((c : Thread nD τ).loc main_arg5) : S256x256.Idx → EReal) = fun i => ((w i : ℝ) : EReal))
    (hb : (m ((c : Thread nD τ).loc main_arg6) : S256.Idx → EReal) = fun i => ((b i : ℝ) : EReal)) :
    ((dat0 (V1 m ρ) c).arrAt 9 cfg0.N : S16384x256.Idx → EReal) = fun i => ((projFlat x w b i : ℝ) : EReal) :=
  (dat0 (V1 m ρ) c).arrAt_eq_of_cover 9 _ (fun t _ => flushed9_eq m ρ c x w b hx hw hb t) cover9

/-- The attention kernel's operand is the host reshape of that array. -/
theorem chain9 (c : Dev nD) : (V3 m ρ c main_v4 : S8x2048x256.Idx → EReal)
    = shapeCast S8x2048x256 ((dat0 (V1 m ρ) c).arrAt 9 cfg0.N : S16384x256.Idx → EReal) shapeCasts_S16384x256_S8x2048x256 := by
  show StableHlo.after hostOps1 (W2 m ρ c) (Proc.devRef .tc main_v4) = _
  after_results
  rw [show W2 m ρ c (Proc.tc.devRef main_v1_2) = _ from W2_arr m ρ c 9]
  rfl

/-! ## The three operands -/

/-- The scaled query projection, as the attention kernel's first operand finds it. -/
theorem v2_eq (c : Dev nD) (x : SA.Idx → ℝ) (w : SW.Idx → ℝ) (b : SB.Idx → ℝ)
    (hx : (m ((c : Thread nD τ).loc main_arg0) : S8x2048x256.Idx → EReal) = fun i => ((x i : ℝ) : EReal))
    (hw : (m ((c : Thread nD τ).loc main_arg1) : S256x256.Idx → EReal) = fun i => ((w i : ℝ) : EReal))
    (hb : (m ((c : Thread nD τ).loc main_arg2) : S256.Idx → EReal) = fun i => ((b i : ℝ) : EReal)) :
    (V3 m ρ c main_v2 : S8x2048x256.Idx → EReal) = fun i => ((projR x w b i * (1 / 16) : ℝ) : EReal) := by
  rw [chain7, final7 m ρ c x w b hx hw hb]
  exact unflatten (fun r => r * (1 / 16)) x w b

/-- The key projection. -/
theorem v3_eq (c : Dev nD) (x : SA.Idx → ℝ) (w : SW.Idx → ℝ) (b : SB.Idx → ℝ)
    (hx : (m ((c : Thread nD τ).loc main_arg0) : S8x2048x256.Idx → EReal) = fun i => ((x i : ℝ) : EReal))
    (hw : (m ((c : Thread nD τ).loc main_arg3) : S256x256.Idx → EReal) = fun i => ((w i : ℝ) : EReal))
    (hb : (m ((c : Thread nD τ).loc main_arg4) : S256.Idx → EReal) = fun i => ((b i : ℝ) : EReal)) :
    (V3 m ρ c main_v3 : S8x2048x256.Idx → EReal) = fun i => ((projR x w b i : ℝ) : EReal) := by
  rw [chain8, final8 m ρ c x w b hx hw hb]
  exact unflatten (fun r => r) x w b

/-- The value projection. -/
theorem v4_eq (c : Dev nD) (x : SA.Idx → ℝ) (w : SW.Idx → ℝ) (b : SB.Idx → ℝ)
    (hx : (m ((c : Thread nD τ).loc main_arg0) : S8x2048x256.Idx → EReal) = fun i => ((x i : ℝ) : EReal))
    (hw : (m ((c : Thread nD τ).loc main_arg5) : S256x256.Idx → EReal) = fun i => ((w i : ℝ) : EReal))
    (hb : (m ((c : Thread nD τ).loc main_arg6) : S256.Idx → EReal) = fun i => ((b i : ℝ) : EReal)) :
    (V3 m ρ c main_v4 : S8x2048x256.Idx → EReal) = fun i => ((projR x w b i : ℝ) : EReal) := by
  rw [chain9, final9 m ρ c x w b hx hw hb]
  exact unflatten (fun r => r) x w b

end Cert.KernelIdeal.Proj

end
-- ==== Proof.FlashSpec.lean ====
/-
  One online-softmax step of the attention kernel, as a function of whole blocks, and the block the kernel
  leaves for one query tile.

  For one query tile q (8 × 256 × 256: batch, query row, feature) and the eight key/value tiles
  K_j, V_j (rows 256 j … 256 j + 255 of the key and value arrays) the kernel keeps, per (batch, query row),
  a running shift m, a running normaliser l and, per feature, a running numerator acc:
      s_j   = q · K_jᵀ                       (contraction over the feature axis)
      m_j   = max m_{j-1} (max over the tile's keys of s_j)
      a_j   = exp (m_{j-1} - m_j)
      p_j   = exp (s_j - m_j)
      l_j   = a_j · l_{j-1} + Σ_keys p_j
      acc_j = a_j · acc_{j-1} + p_j · V_j     (contraction over the tile's keys)
  from m_0 a large negative constant, l_0 = 0, acc_0 = 0, and leaves acc_8 / l_8.
-/
import proofs.«421883_j63634235458009_3_alg».proof.Proof.Gen.KernelIdeal
import Idealize.ShloMosaic.Lib.Pipeline.FrameBody

noncomputable section

namespace Cert.KernelIdeal.Flash

open Idealize.ShloMosaic Cert.KernelIdeal Cert.KernelIdeal.Gen

variable {F : FTy → Type} [FloatOps F]

/-- The running state: shift, normaliser, numerator. -/
structure St (F : FTy → Type) where
  m : FVec F S8x256x1 .f32
  l : FVec F S8x256x1 .f32
  acc : FVec F S8x256x256 .f32

/-- The scores of a query tile against one key tile: the contraction over the feature axis, per batch. -/
def scores (q : FVec F S8x256x256 .bf16) (kb : Vec F S8x256x256 .bf16) : FVec F S8x256x256 .f32 :=
  matmul dot_S8x256x256_S8x256x256_S8x256x256_2_2_1_1_0_0 none q
    (shapeCast S8x256x256 kb shapeCasts_S8x256x256_S8x256x256) (constant S8x256x256 .f32 0x00000000#32)

/-- The new shift: the larger of the old one and the tile's row maximum. -/
def newMax (s : FVec F S8x256x256 .f32) (m : Vec F S8x256x1 .f32) : FVec F S8x256x1 .f32 :=
  maximumf m (shapeCast S8x256x1
    (multiReduction .maximumf [2] S8x256 s 0xFF800000#32 reduces_S8x256x256_S8x256 (.inl rfl) rfl) shapeCasts_S8x256_S8x256x1)

/-- The factor the old normaliser and numerator are rescaled by. -/
def rescale (s : FVec F S8x256x256 .f32) (m : Vec F S8x256x1 .f32) : FVec F S8x256x1 .f32 :=
  exp (subf m (newMax s m))

/-- The tile's weights: the exponential of the scores less the new shift. -/
def weights (s : FVec F S8x256x256 .f32) (m : Vec F S8x256x1 .f32) : FVec F S8x256x256 .f32 :=
  exp (subf s (broadcastTo S8x256x256 (newMax s m) broadcasts_S8x256x1_S8x256x256))

/-- One step over a key tile `kb` and a value tile `vb`. -/
def step (q : FVec F S8x256x256 .bf16) (kb vb : Vec F S8x256x256 .bf16) (σ : St F) : St F where
  m := shapeCast S8x256x1 (newMax (scores q kb) σ.m) shapeCasts_S8x256x1_S8x256x1
  l := shapeCast S8x256x1
        (addf (mulf (rescale (scores q kb) σ.m) σ.l)
          (shapeCast S8x256x1
            (multiReduction .add [2] S8x256 (weights (scores q kb) σ.m) 0x00000000#32 reduces_S8x256x256_S8x256 (.inl rfl) rfl)
            shapeCasts_S8x256_S8x256x1))
        shapeCasts_S8x256x1_S8x256x1
  acc := shapeCast S8x256x256
        (addf (mulf (broadcastTo S8x256x256 (rescale (scores q kb) σ.m) broadcasts_S8x256x1_S8x256x256) σ.acc)
          (matmul dot_S8x256x256_S8x256x256_S8x256x256_2_1_1_2_0_0 none
            (truncf .bf16 (weights (scores q kb) σ.m) bitsLt_bf16_f32)
            (shapeCast S8x256x256 vb shapeCasts_S8x256x256_S8x256x256) (constant S8x256x256 .f32 0x00000000#32)))
        shapeCasts_S8x256x256_S8x256x256

/-- The state before the first tile. -/
def init : St F where
  m := shapeCast S8x256x1 (broadcast S8x256x1 (Scalar.ofBits .f32 0xFF333332#32)) shapeCasts_S8x256x1_S8x256x1
  l := shapeCast S8x256x1 (broadcast S8x256x1 (Scalar.ofBits .f32 0x00000000#32)) shapeCasts_S8x256x1_S8x256x1
  acc := shapeCast S8x256x256 (broadcast S8x256x256 (Scalar.ofBits .f32 0x00000000#32)) shapeCasts_S8x256x256_S8x256x256

/-- Rows `off … off + 255` of a key or value array, every batch and feature. -/
def tile (x : Vec F S8x2048x256 .bf16) (off : Nat)
    (h : ∀ a, (![0, off, 0] : Fin 3 → Nat) a + S8x256x256.size a ≤ S8x2048x256.size a) : Vec F S8x256x256 .bf16 :=
  View.ld x (Rect.unit (s := S8x2048x256) ![0, off, 0] S8x256x256.size h)

theorem tile_inb (j : Fin 8) : ∀ a, (![0, 256 * j.val, 0] : Fin 3 → Nat) a + S8x256x256.size a ≤ S8x2048x256.size a := by
  intro a
  have := j.isLt
  match a with
  | ⟨0, _⟩ => show 0 + 8 ≤ 8; omega
  | ⟨1, _⟩ => show 256 * j.val + 256 ≤ 2048; omega
  | ⟨2, _⟩ => show 0 + 256 ≤ 256; omega

/-- The state after the first `n` tiles. -/
def after (q : FVec F S8x256x256 .bf16) (K V : Vec F S8x2048x256 .bf16) : (n : Nat) → n ≤ 8 → St F
  | 0, _ => init
  | n + 1, h => step q (tile K (256 * n) (tile_inb ⟨n, h⟩)) (tile V (256 * n) (tile_inb ⟨n, h⟩)) (after q K V n (Nat.le_of_succ_le h))

/-- What the kernel leaves for the query tile: numerator over normaliser after the eighth tile. -/
def block (x0 : Vec F S8x256x256 .bf16) (K V : Vec F S8x2048x256 .bf16) : FVec F S8x256x256 .f32 :=
  divf (after (shapeCast S8x256x256 x0 shapeCasts_S8x256x256_S8x256x256) K V 8 (Nat.le_refl 8)).acc
    (broadcastTo S8x256x256 (after (shapeCast S8x256x256 x0 shapeCasts_S8x256x256_S8x256x256) K V 8 (Nat.le_refl 8)).l
      broadcasts_S8x256x1_S8x256x256)

end Cert.KernelIdeal.Flash

end
-- ==== Proof.FlashPiece.lean ====
import proofs.«421883_j63634235458009_3_alg».proof.Proof.Gen.KernelIdeal.Frame
import proofs.«421883_j63634235458009_3_alg».proof.Proof.FlashSpec
import Idealize.ShloMosaic.Lib.Pipeline.Value
import Idealize.ShloMosaic.Lib.Tactic

set_option maxRecDepth 16384

noncomputable section
open Idealize.ShloMosaic Idealize.ShloMosaic.TcCoe Idealize.SL.Sem

namespace Cert.KernelIdeal.Flash
open Cert.KernelIdeal Cert.KernelIdeal.Gen
variable {F : FTy → Type} [FloatOps F]

theorem hz3 : (![0, 0, 0] : Fin 3 → Nat) = fun _ => 0 := funext fun a => by fin_cases a <;> rfl

/-- What the kernel's run leaves in the output's staging buffer, for any staging memrefs: the block of the
    online-softmax recurrence over the three input blocks. -/
theorem out_eq_block (c : Dev nD) (i : grid1.Coords) (arg1 : Memref sig .tc .vmem S8x256x256 .bf16) (harg1 : arg1.IsWhole) (arg2 : Memref sig .tc .vmem S8x2048x256 .bf16) (harg2 : arg2.IsWhole) (arg3 : Memref sig .tc .vmem S8x2048x256 .bf16) (harg3 : arg3.IsWhole) (arg4 : Memref sig .tc .vmem S8x256x256 .f32) (harg4 : arg4.IsWhole) (arg5 : Memref sig .tc .vmem S8x256x1 .f32) (harg5 : arg5.IsWhole) (arg6 : Memref sig .tc .vmem S8x256x1 .f32) (harg6 : arg6.IsWhole) (arg7 : Memref sig .tc .vmem S8x256x256 .f32) (harg7 : arg7.IsWhole)
    (x0 : Vec F S8x256x256 .bf16) (x1 : Vec F S8x2048x256 .bf16) (x2 : Vec F S8x2048x256 .bf16) :
    out1_A_3 c i arg1 harg1 arg2 harg2 arg3 harg3 arg4 harg4 arg5 harg5 arg6 harg6 arg7 harg7 x0 x1 x2 = block x0 x1 x2 := by
  unfold out1_A_3
  rw [View.read_writes_eq_canon _ _ _ (cover1_A_3 c i arg1 harg1 arg2 harg2 arg3 harg3 arg4 harg4 arg5 harg5 arg6 harg6 arg7 harg7 x0 x1 x2)]
  unfold kernelRun1_A
  dsimp only
  sl_unfold_words
  rw [View.canon_unit_zero hz3]
  simp only [View.readAt_eq_ld, harg1.read_unread, harg2.read_unread, harg3.read_unread, View.ld_unit_zero (S := S8x256x256) hz3, View.readCov_cons_toLoadRect]
  rfl

end Cert.KernelIdeal.Flash
end
-- ==== Proof.FlashStep.lean ====
/-
  One online-softmax step read entry by entry at real inputs: the new shift is the larger of the old shift and the
  tile's largest score, the normaliser and the numerator are rescaled by exp(old shift - new shift) and take the
  tile's exponentials (times the values).
-/
import proofs.«421883_j63634235458009_3_alg».proof.Proof.FlashSpec
import proofs.«421883_j63634235458009_3_alg».proof.Proof.Spec
import proofs.«421883_j63634235458009_3_alg».proof.Proof.IdealCoe
import proofs.«421883_j63634235458009_3_alg».proof.Proof.Consts
import Idealize.ShloMosaic.Lib.Pipeline.Value
import Idealize.ShloMosaic.Lib.ValueLayout
import Idealize.ShloMosaic.PureOps.Ideal.Laws

noncomputable section

open scoped BigOperators

namespace Cert.KernelIdeal.Flash

open Idealize.ShloMosaic Idealize.ShloMosaic.ValueIdx Cert.KernelIdeal Cert.KernelIdeal.Gen Cert.Attn

/-- The score of query row (b, r) against key row k of the tile. -/
def sR (q kb : S8x256x256.Idx → ℝ) (b : Fin 8) (r : Fin 256) (k : Fin 256) : ℝ :=
  ∑ e : Fin 256, q (ix3 b r e) * kb (ix3 b k e)

/-- The new shift of row (b, r). -/
def mR (q kb : S8x256x256.Idx → ℝ) (mr : S8x256x1.Idx → ℝ) (b : Fin 8) (r : Fin 256) : ℝ :=
  max (mr (ix3 b r 0)) (rowMax (sR q kb b r))

/-- A state of reals. -/
def coeSt (mr lr : S8x256x1.Idx → ℝ) (ar : S8x256x256.Idx → ℝ) : St Ideal :=
  ⟨fun y => ((mr y : ℝ) : EReal), fun y => ((lr y : ℝ) : EReal), fun y => ((ar y : ℝ) : EReal)⟩

/-! ### The scores: a batched contraction over the feature axis -/

theorem qk_lhs_0 (i : S8x256x256.Idx) (c : dot_S8x256x256_S8x256x256_S8x256x256_2_2_1_1_0_0.contr.Idx) :
    (dot_S8x256x256_S8x256x256_S8x256x256_2_2_1_1_0_0.lhsIdx i c 0).val = (i 0).val := by
  unfold DotDims.lhsIdx
  rw [dif_pos (show (0 : Fin S8x256x256.rank) ∈ dot_S8x256x256_S8x256x256_S8x256x256_2_2_1_1_0_0.lhsBatch by decide)]
  rfl
theorem qk_lhs_1 (i : S8x256x256.Idx) (c : dot_S8x256x256_S8x256x256_S8x256x256_2_2_1_1_0_0.contr.Idx) :
    (dot_S8x256x256_S8x256x256_S8x256x256_2_2_1_1_0_0.lhsIdx i c 1).val = (i 1).val := by
  unfold DotDims.lhsIdx
  rw [dif_neg (show ¬(1 : Fin S8x256x256.rank) ∈ dot_S8x256x256_S8x256x256_S8x256x256_2_2_1_1_0_0.lhsBatch by decide), dif_pos (show (1 : Fin S8x256x256.rank) ∈ dot_S8x256x256_S8x256x256_S8x256x256_2_2_1_1_0_0.lhsNonContracting by decide)]
  rfl
theorem qk_lhs_2 (i : S8x256x256.Idx) (c : dot_S8x256x256_S8x256x256_S8x256x256_2_2_1_1_0_0.contr.Idx) :
    (dot_S8x256x256_S8x256x256_S8x256x256_2_2_1_1_0_0.lhsIdx i c 2).val = (c ⟨0, by decide⟩).val :=
  dot_S8x256x256_S8x256x256_S8x256x256_2_2_1_1_0_0.lhsIdx_val_of_single rfl i c
theorem qk_rhs_0 (i : S8x256x256.Idx) (c : dot_S8x256x256_S8x256x256_S8x256x256_2_2_1_1_0_0.contr.Idx) :
    (dot_S8x256x256_S8x256x256_S8x256x256_2_2_1_1_0_0.rhsIdx i c 0).val = (i 0).val := by
  unfold DotDims.rhsIdx
  rw [dif_pos (show (0 : Fin S8x256x256.rank) ∈ dot_S8x256x256_S8x256x256_S8x256x256_2_2_1_1_0_0.rhsBatch by decide)]
  rfl
theorem qk_rhs_1 (i : S8x256x256.Idx) (c : dot_S8x256x256_S8x256x256_S8x256x256_2_2_1_1_0_0.contr.Idx) :
    (dot_S8x256x256_S8x256x256_S8x256x256_2_2_1_1_0_0.rhsIdx i c 1).val = (i 2).val := by
  unfold DotDims.rhsIdx
  rw [dif_neg (show ¬(1 : Fin S8x256x256.rank) ∈ dot_S8x256x256_S8x256x256_S8x256x256_2_2_1_1_0_0.rhsBatch by decide), dif_pos (show (1 : Fin S8x256x256.rank) ∈ dot_S8x256x256_S8x256x256_S8x256x256_2_2_1_1_0_0.rhsNonContracting by decide)]
  rfl
theorem qk_rhs_2 (i : S8x256x256.Idx) (c : dot_S8x256x256_S8x256x256_S8x256x256_2_2_1_1_0_0.contr.Idx) :
    (dot_S8x256x256_S8x256x256_S8x256x256_2_2_1_1_0_0.rhsIdx i c 2).val = (c ⟨0, by decide⟩).val :=
  dot_S8x256x256_S8x256x256_S8x256x256_2_2_1_1_0_0.rhsIdx_val_of_single rfl i c

/-- The contraction of two blocks over the feature axis, read at (b, r, k). -/
theorem qk_apply (x y : FVec Ideal S8x256x256 .bf16) (b : Fin 8) (r k : Fin 256) :
    matmul (F := Ideal) dot_S8x256x256_S8x256x256_S8x256x256_2_2_1_1_0_0 none x y (constant (F := Ideal) S8x256x256 .f32 0x00000000#32) (ix3 b r k)
      = ∑ e : Fin 256, x (ix3 b r e) * y (ix3 b k e) := by
  simp only [matmul]
  rw [Ideal.matmul_constant_zero_apply, ← Equiv.sum_comp (ValueIdx.contrEquiv1 dot_S8x256x256_S8x256x256_S8x256x256_2_2_1_1_0_0 256 rfl rfl).symm]
  refine Finset.sum_congr rfl fun e _ => ?_
  have he := ValueIdx.contrEquiv1_symm_val dot_S8x256x256_S8x256x256_S8x256x256_2_2_1_1_0_0 256 rfl rfl e
  have el : dot_S8x256x256_S8x256x256_S8x256x256_2_2_1_1_0_0.lhsIdx (ix3 b r k) ((ValueIdx.contrEquiv1 dot_S8x256x256_S8x256x256_S8x256x256_2_2_1_1_0_0 256 rfl rfl).symm e) = ix3 b r e := funext fun a => Fin.ext (by
    match a with
    | ⟨0, _⟩ => exact qk_lhs_0 _ _
    | ⟨1, _⟩ => exact qk_lhs_1 _ _
    | ⟨2, _⟩ => exact (qk_lhs_2 _ _).trans he)
  have er : dot_S8x256x256_S8x256x256_S8x256x256_2_2_1_1_0_0.rhsIdx (ix3 b r k) ((ValueIdx.contrEquiv1 dot_S8x256x256_S8x256x256_S8x256x256_2_2_1_1_0_0 256 rfl rfl).symm e) = ix3 b k e := funext fun a => Fin.ext (by
    match a with
    | ⟨0, _⟩ => exact qk_rhs_0 _ _
    | ⟨1, _⟩ => exact qk_rhs_1 _ _
    | ⟨2, _⟩ => exact (qk_rhs_2 _ _).trans he)
  rw [el, er]

/-- The scores of coerced reals are the coerced real scores. -/
theorem scores_apply (q kb : S8x256x256.Idx → ℝ) (b : Fin 8) (r k : Fin 256) :
    scores (F := Ideal) (fun y => ((q y : ℝ) : EReal)) (fun y => ((kb y : ℝ) : EReal)) (ix3 b r k)
      = ((sR q kb b r k : ℝ) : EReal) := by
  unfold scores
  rw [shapeCast_self]
  refine (qk_apply _ _ b r k).trans ?_
  unfold sR
  rw [← coe_sum]
  refine Finset.sum_congr rfl fun e _ => ?_
  exact (EReal.coe_mul _ _).symm

/-! ### Layout: a trailing unit axis added by a cast, and broadcast along it -/

/-- An [a, b] array cast to [a, b, 1] reads, at (i, j, u), the operand at (i, j). -/
theorem shapeCast_ab_ab1_apply {α : Type} {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- A column [8, 256, 1] broadcast to [8, 256, 256] reads, at (b, r, k), the column at (b, r, 0). -/
theorem broadcastTo_col_apply {α : Type} (v : S8x256x1.Idx → α) (h : S8x256x1.Broadcasts S8x256x256)
    (b : Fin 8) (r k : Fin 256) :
    broadcastTo S8x256x256 v h (ix3 b r k) = v (ix3 b r (0 : Fin 1)) := by
  refine broadcastTo_apply v h (ix3 b r k) (ix3 b r (0 : Fin 1)) fun ax => ?_
  match ax with
  | ⟨0, _⟩ => show b.val = if (8 : ℕ) = 1 then 0 else b.val; rw [if_neg (by decide)]
  | ⟨1, _⟩ => show r.val = if (256 : ℕ) = 1 then 0 else r.val; rw [if_neg (by decide)]
  | ⟨2, _⟩ => show (0 : ℕ) = if (1 : ℕ) = 1 then 0 else k.val; rw [if_pos rfl]

/-! ### The row maximum and the new shift -/

/-- The index a reduction over the last axis inserts coordinate k into. -/
theorem lift_last (b : Fin 8) (r k : Fin 256) :
    reduces_S8x256x256_S8x256.lift (ix2 b r) k = ix3 b r k :=
  funext fun a => Fin.ext (by
    match a with
    | ⟨0, _⟩ => rfl
    | ⟨1, _⟩ => rfl
    | ⟨2, _⟩ => rfl)

/-- The maximum over the key axis, read at (b, r): the fold of max from minus infinity over the row. -/
theorem rowmax_apply (s : FVec Ideal S8x256x256 .f32) (b : Fin 8) (r : Fin 256) :
    multiReduction (F := Ideal) .maximumf [2] S8x256 s 0xFF800000#32 reduces_S8x256x256_S8x256 (.inl rfl) rfl (ix2 b r)
      = (Finset.univ : Finset (Fin 256)).fold max (⊥ : EReal) (fun k => s (ix3 b r k)) := by
  refine (Ideal.multiReduction_maximumf_single s 0xFF800000#32 reduces_S8x256x256_S8x256 (.inl rfl) rfl (ix2 b r)).trans ?_
  show (Finset.univ : Finset (Fin 256)).fold max (Ideal.ofBits .f32 0xFF800000#32) (fun k => s (reduces_S8x256x256_S8x256.lift (ix2 b r) k)) = _
  rw [ofBits_neg_inf]
  exact congrArg (fun f => Finset.fold max (⊥ : EReal) f (Finset.univ : Finset (Fin 256)))
    (funext fun k => congrArg s (lift_last b r k))

/-- The new shift at (b, r): the larger of the old shift and the fold of max over the row of scores. -/
theorem newMax_apply (s : FVec Ideal S8x256x256 .f32) (m : FVec Ideal S8x256x1 .f32) (b : Fin 8) (r : Fin 256) (u : Fin 1) :
    newMax (F := Ideal) s m (ix3 b r u)
      = max (m (ix3 b r u)) ((Finset.univ : Finset (Fin 256)).fold max (⊥ : EReal) (fun k => s (ix3 b r k))) := by
  unfold newMax
  show max (m (ix3 b r u)) (shapeCast S8x256x1 _ shapeCasts_S8x256_S8x256x1 (ix3 b r u)) = _
  rw [shapeCast_ab_ab1_apply, rowmax_apply]

/-- The maximum of two coerced reals. -/
theorem coe_max' (x y : ℝ) : max ((x : ℝ) : EReal) ((y : ℝ) : EReal) = ((max x y : ℝ) : EReal) :=
  (EReal.coe_strictMono.monotone.map_max).symm

variable (q kb vb : S8x256x256.Idx → ℝ) (mr lr : S8x256x1.Idx → ℝ) (ar : S8x256x256.Idx → ℝ)

/-- The new shift of coerced reals is the coerced real shift. -/
theorem newMax_coe (b : Fin 8) (r : Fin 256) :
    newMax (F := Ideal) (scores (F := Ideal) (fun y => ((q y : ℝ) : EReal)) (fun y => ((kb y : ℝ) : EReal)))
        (fun y => ((mr y : ℝ) : EReal)) (ix3 b r 0)
      = ((mR q kb mr b r : ℝ) : EReal) := by
  rw [newMax_apply]
  simp only [scores_apply]
  rw [fold_max_coe 255 (sR q kb b r), coe_max']
  rfl

/-- An exponential at an index is the exponential of the element. -/
theorem exp_apply {s : Shape} {φ : FTy} (a : FVec Ideal s φ) (i : s.Idx) : exp a i = Ideal.exp (a i) := rfl

/-- The rescaling factor of coerced reals. -/
theorem rescale_coe (b : Fin 8) (r : Fin 256) :
    rescale (F := Ideal) (scores (F := Ideal) (fun y => ((q y : ℝ) : EReal)) (fun y => ((kb y : ℝ) : EReal)))
        (fun y => ((mr y : ℝ) : EReal)) (ix3 b r 0)
      = ((Real.exp (mr (ix3 b r 0) - mR q kb mr b r) : ℝ) : EReal) := by
  unfold rescale
  rw [exp_apply, subf_apply, newMax_coe, ← EReal.coe_sub, Ideal.exp_coe]

/-- The weights of coerced reals. -/
theorem weights_coe (b : Fin 8) (r k : Fin 256) :
    weights (F := Ideal) (scores (F := Ideal) (fun y => ((q y : ℝ) : EReal)) (fun y => ((kb y : ℝ) : EReal)))
        (fun y => ((mr y : ℝ) : EReal)) (ix3 b r k)
      = ((Real.exp (sR q kb b r k - mR q kb mr b r) : ℝ) : EReal) := by
  unfold weights
  rw [exp_apply, subf_apply, broadcastTo_col_apply, scores_apply, newMax_coe, ← EReal.coe_sub, Ideal.exp_coe]

/-- The sum over the key axis, read at (b, r). -/
theorem rowsum_apply (s : FVec Ideal S8x256x256 .f32) (b : Fin 8) (r : Fin 256) :
    multiReduction (F := Ideal) .add [2] S8x256 s 0x00000000#32 reduces_S8x256x256_S8x256 (.inl rfl) rfl (ix2 b r)
      = ∑ k : Fin 256, s (ix3 b r k) := by
  refine (Ideal.multiReduction_add_single s 0x00000000#32 reduces_S8x256x256_S8x256 (.inl rfl) rfl (ix2 b r)).trans ?_
  show ∑ k : Fin 256, s (reduces_S8x256x256_S8x256.lift (ix2 b r) k) = _
  exact Finset.sum_congr rfl fun k _ => congrArg s (lift_last b r k)

/-! ### The numerator's update: a batched contraction over the tile's keys -/

theorem pv_lhs_0 (i : S8x256x256.Idx) (c : dot_S8x256x256_S8x256x256_S8x256x256_2_1_1_2_0_0.contr.Idx) :
    (dot_S8x256x256_S8x256x256_S8x256x256_2_1_1_2_0_0.lhsIdx i c 0).val = (i 0).val := by
  unfold DotDims.lhsIdx
  rw [dif_pos (show (0 : Fin S8x256x256.rank) ∈ dot_S8x256x256_S8x256x256_S8x256x256_2_1_1_2_0_0.lhsBatch by decide)]
  rfl
theorem pv_lhs_1 (i : S8x256x256.Idx) (c : dot_S8x256x256_S8x256x256_S8x256x256_2_1_1_2_0_0.contr.Idx) :
    (dot_S8x256x256_S8x256x256_S8x256x256_2_1_1_2_0_0.lhsIdx i c 1).val = (i 1).val := by
  unfold DotDims.lhsIdx
  rw [dif_neg (show ¬(1 : Fin S8x256x256.rank) ∈ dot_S8x256x256_S8x256x256_S8x256x256_2_1_1_2_0_0.lhsBatch by decide), dif_pos (show (1 : Fin S8x256x256.rank) ∈ dot_S8x256x256_S8x256x256_S8x256x256_2_1_1_2_0_0.lhsNonContracting by decide)]
  rfl
theorem pv_lhs_2 (i : S8x256x256.Idx) (c : dot_S8x256x256_S8x256x256_S8x256x256_2_1_1_2_0_0.contr.Idx) :
    (dot_S8x256x256_S8x256x256_S8x256x256_2_1_1_2_0_0.lhsIdx i c 2).val = (c ⟨0, by decide⟩).val :=
  dot_S8x256x256_S8x256x256_S8x256x256_2_1_1_2_0_0.lhsIdx_val_of_single rfl i c
theorem pv_rhs_0 (i : S8x256x256.Idx) (c : dot_S8x256x256_S8x256x256_S8x256x256_2_1_1_2_0_0.contr.Idx) :
    (dot_S8x256x256_S8x256x256_S8x256x256_2_1_1_2_0_0.rhsIdx i c 0).val = (i 0).val := by
  unfold DotDims.rhsIdx
  rw [dif_pos (show (0 : Fin S8x256x256.rank) ∈ dot_S8x256x256_S8x256x256_S8x256x256_2_1_1_2_0_0.rhsBatch by decide)]
  rfl
theorem pv_rhs_1 (i : S8x256x256.Idx) (c : dot_S8x256x256_S8x256x256_S8x256x256_2_1_1_2_0_0.contr.Idx) :
    (dot_S8x256x256_S8x256x256_S8x256x256_2_1_1_2_0_0.rhsIdx i c 1).val = (c ⟨0, by decide⟩).val :=
  dot_S8x256x256_S8x256x256_S8x256x256_2_1_1_2_0_0.rhsIdx_val_of_single rfl i c
theorem pv_rhs_2 (i : S8x256x256.Idx) (c : dot_S8x256x256_S8x256x256_S8x256x256_2_1_1_2_0_0.contr.Idx) :
    (dot_S8x256x256_S8x256x256_S8x256x256_2_1_1_2_0_0.rhsIdx i c 2).val = (i 2).val := by
  unfold DotDims.rhsIdx
  rw [dif_neg (show ¬(2 : Fin S8x256x256.rank) ∈ dot_S8x256x256_S8x256x256_S8x256x256_2_1_1_2_0_0.rhsBatch by decide), dif_pos (show (2 : Fin S8x256x256.rank) ∈ dot_S8x256x256_S8x256x256_S8x256x256_2_1_1_2_0_0.rhsNonContracting by decide)]
  rfl

/-- The contraction of a block of weights with a block of values over the key axis, read at (b, r, d). -/
theorem pv_apply (x y : FVec Ideal S8x256x256 .bf16) (b : Fin 8) (r d : Fin 256) :
    matmul (F := Ideal) dot_S8x256x256_S8x256x256_S8x256x256_2_1_1_2_0_0 none x y (constant (F := Ideal) S8x256x256 .f32 0x00000000#32) (ix3 b r d)
      = ∑ k : Fin 256, x (ix3 b r k) * y (ix3 b k d) := by
  simp only [matmul]
  rw [Ideal.matmul_constant_zero_apply, ← Equiv.sum_comp (ValueIdx.contrEquiv1 dot_S8x256x256_S8x256x256_S8x256x256_2_1_1_2_0_0 256 rfl rfl).symm]
  refine Finset.sum_congr rfl fun k _ => ?_
  have hk := ValueIdx.contrEquiv1_symm_val dot_S8x256x256_S8x256x256_S8x256x256_2_1_1_2_0_0 256 rfl rfl k
  have el : dot_S8x256x256_S8x256x256_S8x256x256_2_1_1_2_0_0.lhsIdx (ix3 b r d) ((ValueIdx.contrEquiv1 dot_S8x256x256_S8x256x256_S8x256x256_2_1_1_2_0_0 256 rfl rfl).symm k) = ix3 b r k := funext fun a => Fin.ext (by
    match a with
    | ⟨0, _⟩ => exact pv_lhs_0 _ _
    | ⟨1, _⟩ => exact pv_lhs_1 _ _
    | ⟨2, _⟩ => exact (pv_lhs_2 _ _).trans hk)
  have er : dot_S8x256x256_S8x256x256_S8x256x256_2_1_1_2_0_0.rhsIdx (ix3 b r d) ((ValueIdx.contrEquiv1 dot_S8x256x256_S8x256x256_S8x256x256_2_1_1_2_0_0 256 rfl rfl).symm k) = ix3 b k d := funext fun a => Fin.ext (by
    match a with
    | ⟨0, _⟩ => exact pv_rhs_0 _ _
    | ⟨1, _⟩ => exact (pv_rhs_1 _ _).trans hk
    | ⟨2, _⟩ => exact pv_rhs_2 _ _)
  rw [el, er]

theorem step_m :
    (step (F := Ideal) (fun y => ((q y : ℝ) : EReal)) (fun y => ((kb y : ℝ) : EReal)) (fun y => ((vb y : ℝ) : EReal)) (coeSt mr lr ar)).m
      = fun y => ((mR q kb mr (y 0) (y 1) : ℝ) : EReal) := by
  funext y
  obtain ⟨b, r, u, rfl⟩ : ∃ b r u, y = ix3 b r u := ⟨y 0, y 1, y 2, eq_ix3 y⟩
  obtain rfl : u = 0 := Subsingleton.elim _ _
  unfold step coeSt
  dsimp only
  rw [shapeCast_self]
  exact newMax_coe q kb mr b r

theorem step_l :
    (step (F := Ideal) (fun y => ((q y : ℝ) : EReal)) (fun y => ((kb y : ℝ) : EReal)) (fun y => ((vb y : ℝ) : EReal)) (coeSt mr lr ar)).l
      = fun y => ((Real.exp (mr (ix3 (y 0) (y 1) 0) - mR q kb mr (y 0) (y 1)) * lr (ix3 (y 0) (y 1) 0)
          + ∑ k : Fin 256, Real.exp (sR q kb (y 0) (y 1) k - mR q kb mr (y 0) (y 1)) : ℝ) : EReal) := by
  funext y
  obtain ⟨b, r, u, rfl⟩ : ∃ b r u, y = ix3 b r u := ⟨y 0, y 1, y 2, eq_ix3 y⟩
  obtain rfl : u = 0 := Subsingleton.elim _ _
  unfold step coeSt
  dsimp only
  rw [shapeCast_self, addf_apply, mulf_apply, rescale_coe, shapeCast_ab_ab1_apply, rowsum_apply]
  simp only [weights_coe]
  rw [coe_sum, ← EReal.coe_mul, ← EReal.coe_add]

theorem step_acc :
    (step (F := Ideal) (fun y => ((q y : ℝ) : EReal)) (fun y => ((kb y : ℝ) : EReal)) (fun y => ((vb y : ℝ) : EReal)) (coeSt mr lr ar)).acc
      = fun y => ((Real.exp (mr (ix3 (y 0) (y 1) 0) - mR q kb mr (y 0) (y 1)) * ar y
          + ∑ k : Fin 256, Real.exp (sR q kb (y 0) (y 1) k - mR q kb mr (y 0) (y 1)) * vb (ix3 (y 0) k (y 2)) : ℝ) : EReal) := by
  funext y
  obtain ⟨b, r, d, rfl⟩ : ∃ b r d, y = ix3 b r d := ⟨y 0, y 1, y 2, eq_ix3 y⟩
  unfold step coeSt
  dsimp only
  rw [shapeCast_self, shapeCast_self, addf_apply, mulf_apply, broadcastTo_col_apply, rescale_coe, pv_apply]
  have hw : ∀ k : Fin 256,
      truncf (F := Ideal) .bf16 (weights (F := Ideal) (scores (F := Ideal) (fun y => ((q y : ℝ) : EReal)) (fun y => ((kb y : ℝ) : EReal)))
          (fun y => ((mr y : ℝ) : EReal))) bitsLt_bf16_f32 (ix3 b r k)
        * ((vb (ix3 b k d) : ℝ) : EReal)
      = ((Real.exp (sR q kb b r k - mR q kb mr b r) * vb (ix3 b k d) : ℝ) : EReal) := fun k => by
    rw [truncf_apply, weights_coe, ← EReal.coe_mul]
  rw [Finset.sum_congr rfl fun k _ => hw k, coe_sum, ← EReal.coe_mul, ← EReal.coe_add]

end Cert.KernelIdeal.Flash

end
-- ==== Proof.FlashReal.lean ====
/-
  The eight steps at real inputs are the running recurrences of the tiled quotient, so the block the kernel leaves
  for a query tile is, entry by entry, the plain exponential quotient of that query row over all 2048 keys.
-/
import proofs.«421883_j63634235458009_3_alg».proof.Proof.FlashStep
import proofs.«421883_j63634235458009_3_alg».proof.Proof.OnlineSoftmax

noncomputable section

open scoped BigOperators

namespace Cert.KernelIdeal.Flash

open Idealize.ShloMosaic Idealize.ShloMosaic.ValueIdx Cert.KernelIdeal Cert.KernelIdeal.Gen Cert.Attn

/-- Rows `off … off + 255` of an array of reals. -/
def rowsOf (k : S8x2048x256.Idx → ℝ) (off : ℕ) (h : off + 256 ≤ 2048) : S8x256x256.Idx → ℝ := fun y =>
  k (ix3 (y 0) ⟨off + (y 1).val, by have : (y 1).val < 256 := (y 1).isLt; omega⟩ (y 2))

/-- A tile of an array of coerced reals is the coerced rows: a unit-stride window reads at offset plus coordinate. -/
theorem tile_coe (k : S8x2048x256.Idx → ℝ) (off : Nat)
    (h : ∀ a, (![0, off, 0] : Fin 3 → Nat) a + S8x256x256.size a ≤ S8x2048x256.size a) (h' : off + 256 ≤ 2048) :
    tile (F := Ideal) (fun i => ((k i : ℝ) : EReal)) off h = fun y => ((rowsOf k off h' y : ℝ) : EReal) := by
  funext y
  unfold tile View.ld rowsOf
  show ((k ((Rect.unit (s := S8x2048x256) ![0, off, 0] S8x256x256.size h).idx y) : ℝ) : EReal) = _
  congr 2
  funext a
  match a with
  | ⟨0, _⟩ => apply Fin.ext; show 0 + 1 * (y 0).val = (y 0).val; omega
  | ⟨1, _⟩ => apply Fin.ext; show off + 1 * (y 1).val = off + (y 1).val; omega
  | ⟨2, _⟩ => apply Fin.ext; show 0 + 1 * (y 2).val = (y 2).val; omega

/-- The state before the first tile is a state of reals. -/
theorem init_coe : init (F := Ideal) = coeSt (fun _ => negBig) (fun _ => 0) (fun _ => 0) := by
  unfold init coeSt
  simp only [shapeCast_self, Ideal.ofBits_def, ofBits_negBig, Ideal.ofBits_zero_f32, EReal.coe_zero]
  rfl

/-- Two states with equal shift, normaliser and numerator are equal. -/
theorem St_ext {σ τ : St Ideal} (hm : σ.m = τ.m) (hl : σ.l = τ.l) (ha : σ.acc = τ.acc) : σ = τ := by
  cases σ; cases τ; simp_all

/-- The logits of query row (b, r) against the 2048 keys of batch b. -/
def rowLogit (q : S8x256x256.Idx → ℝ) (k : S8x2048x256.Idx → ℝ) (b : Fin 8) (r : Fin 256) : Fin 2048 → ℝ :=
  logit (fun e => q (ix3 b r e)) k b

/-- Feature d of the 2048 value rows of batch b. -/
def colVal (v : S8x2048x256.Idx → ℝ) (b : Fin 8) (d : Fin 256) : Fin 2048 → ℝ := fun kk => v (ix3 b kk d)

/-- The running shift of row (b, r): the start constant, then the larger of it and each tile's largest logit. -/
def shift (q : S8x256x256.Idx → ℝ) (k : S8x2048x256.Idx → ℝ) (b : Fin 8) (r : Fin 256) : ℕ → ℝ
  | 0 => negBig
  | n + 1 => max (shift q k b r n) (rowMax (tileOf (rowLogit q k b r) n))

/-- The real state after n tiles: the shifts, the running normalisers, the running numerators. -/
def mrN (q : S8x256x256.Idx → ℝ) (k : S8x2048x256.Idx → ℝ) (n : ℕ) : S8x256x1.Idx → ℝ := fun y =>
  shift q k (y 0) (y 1) n
def lrN (q : S8x256x256.Idx → ℝ) (k : S8x2048x256.Idx → ℝ) (n : ℕ) : S8x256x1.Idx → ℝ := fun y =>
  lSeq (tileOf (rowLogit q k (y 0) (y 1))) (shift q k (y 0) (y 1)) n
def arN (q : S8x256x256.Idx → ℝ) (k v : S8x2048x256.Idx → ℝ) (n : ℕ) : S8x256x256.Idx → ℝ := fun y =>
  accSeq (tileOf (rowLogit q k (y 0) (y 1))) (tileOf (colVal v (y 0) (y 2))) (shift q k (y 0) (y 1)) n

variable (q : S8x256x256.Idx → ℝ) (k v : S8x2048x256.Idx → ℝ)

/-- The scores of a query row against tile n of the keys are tile n of its logits. -/
theorem sR_rows (n : ℕ) (hn : n < 8) (h' : 256 * n + 256 ≤ 2048) (b : Fin 8) (r : Fin 256) :
    sR q (rowsOf k (256 * n) h') b r = tileOf (rowLogit q k b r) n := by
  funext kk
  unfold sR tileOf rowLogit logit rowsOf
  rw [dif_pos hn]

/-- Tile n of the values read at (b, key, d) is tile n of that feature's column. -/
theorem rows_val (n : ℕ) (hn : n < 8) (h' : 256 * n + 256 ≤ 2048) (b : Fin 8) (kk : Fin 256) (d : Fin 256) :
    rowsOf v (256 * n) h' (ix3 b kk d) = tileOf (colVal v b d) n kk := by
  unfold tileOf colVal rowsOf
  rw [dif_pos hn]

/-- The new shift of a row is the next term of its shift sequence. -/
theorem mR_rows (n : ℕ) (hn : n < 8) (h' : 256 * n + 256 ≤ 2048) (b : Fin 8) (r : Fin 256) :
    mR q (rowsOf k (256 * n) h') (mrN q k n) b r = shift q k b r (n + 1) := by
  unfold mR
  rw [sR_rows q k n hn h' b r]
  rfl

/-- After n tiles the state is the state of reals given by the shift sequence and the two running recurrences. -/
theorem after_coe : ∀ (n : ℕ) (h : n ≤ 8),
    after (F := Ideal) (fun y => ((q y : ℝ) : EReal)) (fun i => ((k i : ℝ) : EReal)) (fun i => ((v i : ℝ) : EReal)) n h
      = coeSt (mrN q k n) (lrN q k n) (arN q k v n)
  | 0, _ => by
    unfold after
    rw [init_coe]
    rfl
  | n + 1, h => by
    have hn : n < 8 := h
    have h' : 256 * n + 256 ≤ 2048 := by omega
    unfold after
    rw [after_coe n (Nat.le_of_succ_le h), tile_coe k (256 * n) _ h', tile_coe v (256 * n) _ h']
    refine St_ext ?_ ?_ ?_
    · rw [step_m]
      funext y
      obtain ⟨b, r, d, rfl⟩ : ∃ (b : Fin 8) (r : Fin 256) (d : Fin 1), y = ix3 b r d := ⟨y 0, y 1, y 2, eq_ix3 y⟩
      show ((mR q (rowsOf k (256 * n) h') (mrN q k n) b r : ℝ) : EReal) = ((shift q k b r (n + 1) : ℝ) : EReal)
      rw [mR_rows q k n hn h']
    · rw [step_l]
      funext y
      obtain ⟨b, r, d, rfl⟩ : ∃ (b : Fin 8) (r : Fin 256) (d : Fin 1), y = ix3 b r d := ⟨y 0, y 1, y 2, eq_ix3 y⟩
      show ((Real.exp (mrN q k n (ix3 b r 0) - mR q (rowsOf k (256 * n) h') (mrN q k n) b r) * lrN q k n (ix3 b r 0)
          + ∑ kk : Fin 256, Real.exp (sR q (rowsOf k (256 * n) h') b r kk - mR q (rowsOf k (256 * n) h') (mrN q k n) b r) : ℝ) : EReal)
        = ((lSeq (tileOf (rowLogit q k b r)) (shift q k b r) (n + 1) : ℝ) : EReal)
      rw [mR_rows q k n hn h', sR_rows q k n hn h']
      rfl
    · rw [step_acc]
      funext y
      obtain ⟨b, r, d, rfl⟩ : ∃ (b : Fin 8) (r : Fin 256) (d : Fin 256), y = ix3 b r d := ⟨y 0, y 1, y 2, eq_ix3 y⟩
      show ((Real.exp (mrN q k n (ix3 b r 0) - mR q (rowsOf k (256 * n) h') (mrN q k n) b r) * arN q k v n (ix3 b r d)
          + ∑ kk : Fin 256, Real.exp (sR q (rowsOf k (256 * n) h') b r kk - mR q (rowsOf k (256 * n) h') (mrN q k n) b r)
              * rowsOf v (256 * n) h' (ix3 b kk d) : ℝ) : EReal)
        = ((accSeq (tileOf (rowLogit q k b r)) (tileOf (colVal v b d)) (shift q k b r) (n + 1) : ℝ) : EReal)
      rw [mR_rows q k n hn h', sR_rows q k n hn h']
      simp only [rows_val v n hn h']
      rfl

/-- The block for a query tile of reals against key and value arrays of reals. -/
theorem block_real (q : S8x256x256.Idx → ℝ) (k v : S8x2048x256.Idx → ℝ) :
    block (F := Ideal) (fun y => ((q y : ℝ) : EReal)) (fun i => ((k i : ℝ) : EReal)) (fun i => ((v i : ℝ) : EReal))
      = fun y => ((attnRow (fun e => q (ix3 (y 0) (y 1) e)) k v (y 0) (y 2) : ℝ) : EReal) := by
  unfold block
  rw [shapeCast_self, after_coe q k v 8 (Nat.le_refl 8)]
  funext y
  obtain ⟨b, r, d, rfl⟩ : ∃ (b : Fin 8) (r : Fin 256) (d : Fin 256), y = ix3 b r d := ⟨y 0, y 1, y 2, eq_ix3 y⟩
  rw [divf_apply]
  have hb : broadcastTo S8x256x256 (coeSt (mrN q k 8) (lrN q k 8) (arN q k v 8)).l broadcasts_S8x256x1_S8x256x256 (ix3 b r d)
      = ((lSeq (tileOf (rowLogit q k b r)) (shift q k b r) 8 : ℝ) : EReal) := by
    refine (broadcastTo_apply _ _ (ix3 b r d) (ix3 b r (0 : Fin 1)) fun a => ?_).trans rfl
    match a with
    | ⟨0, _⟩ => rfl
    | ⟨1, _⟩ => rfl
    | ⟨2, _⟩ => rfl
  rw [hb]
  show Ideal.div ((accSeq (tileOf (rowLogit q k b r)) (tileOf (colVal v b d)) (shift q k b r) 8 : ℝ) : EReal) _ = _
  rw [div_coe_coe _ _ (lSeq_pos _ _).ne', online_attn]
  rfl

end Cert.KernelIdeal.Flash

end
-- ==== Proof.FlashArr.lean ====
/-
  From the attention kernel's blocks to its result array. Point t of the grid reads query rows 256 t … 256 t + 255
  (every batch) and the whole key and value arrays, and writes rows 256 t … 256 t + 255 of the result; the eight
  blocks tile the [8, 2048, 256] result. With the three operand arrays at the dense layers of real inputs, block t
  is block t of the one function G of the argument arrays, so the result array ends holding G.
-/
import proofs.«421883_j63634235458009_3_alg».proof.Proof.ProjArr
import proofs.«421883_j63634235458009_3_alg».proof.Proof.FlashPiece
import proofs.«421883_j63634235458009_3_alg».proof.Proof.FlashReal

noncomputable section

open scoped BigOperators

namespace Cert.KernelIdeal.FlashArr

open Idealize.ShloMosaic Idealize.ShloMosaic.TcCoe Idealize.ShloMosaic.ValueIdx Idealize.SL.Sem
open Idealize.ShloMosaic.Pipeline (Dat)
open Cert.KernelIdeal Cert.KernelIdeal.Gen Cert.Attn

variable (m : (ℓ : Loc nD τ sig) → Buf (Elt Ideal) ℓ) (ρ : Dev nD → PrngReg)

/-- The index maps over the eight points: the query and result windows move along the row axis with the point,
    the key and value windows stay on the whole arrays. -/
theorem idx_facts : ∀ t : Fin cfg1.N,
    win1_0.index t (0 : Fin 3) = 0 ∧ win1_0.index t (1 : Fin 3) = t.val ∧ win1_0.index t (2 : Fin 3) = 0
    ∧ win1_1.index t (0 : Fin 3) = 0 ∧ win1_1.index t (1 : Fin 3) = 0 ∧ win1_1.index t (2 : Fin 3) = 0
    ∧ win1_2.index t (0 : Fin 3) = 0 ∧ win1_2.index t (1 : Fin 3) = 0 ∧ win1_2.index t (2 : Fin 3) = 0
    ∧ win1_3.index t (0 : Fin 3) = 0 ∧ win1_3.index t (1 : Fin 3) = t.val ∧ win1_3.index t (2 : Fin 3) = 0 :=
  (by decide +kernel : ∀ t : Fin grid1.N, _)

/-- Row r of query tile t is row 256 t + r of the array. -/
def rowOf (t : Fin cfg1.N) (r : Fin 256) : Fin 2048 :=
  ⟨256 * t.val + r.val, by have := t.isLt; have hN : cfg1.N = 8 := N_1; have := r.isLt; omega⟩

/-- The query tile at point t of an array of reals. -/
theorem qblk_eq (c : Dev nD) (t : Fin cfg1.N) (A : S8x2048x256.Idx → ℝ)
    (hA : (V3 m ρ c main_v2 : S8x2048x256.Idx → EReal) = fun i => ((A i : ℝ) : EReal)) :
    (iblk1 (V3 m ρ) c 0 t : S8x256x256.Idx → EReal) = fun y => ((A (ix3 (y 0) (rowOf t (y 1)) (y 2)) : ℝ) : EReal) := by
  obtain ⟨e0, e1, e2, -⟩ := idx_facts t
  funext y
  show V3 m ρ c main_v2 (((cfg1.win 0).blk t).view.emb y) = _
  rw [hA]
  refine congrArg (fun i => ((A i : ℝ) : EReal)) ?_
  funext a; apply Fin.ext
  match a with
  | ⟨0, _⟩ => show win1_0.index t (0 : Fin 3) * 8 + 1 * (y 0).val = (y 0).val; omega
  | ⟨1, _⟩ => show win1_0.index t (1 : Fin 3) * 256 + 1 * (y 1).val = 256 * t.val + (y 1).val; omega
  | ⟨2, _⟩ => show win1_0.index t (2 : Fin 3) * 256 + 1 * (y 2).val = (y 2).val; omega

/-- The key window's block is the whole array, at every point. -/
theorem kblk_eq (c : Dev nD) (t : Fin cfg1.N) :
    (iblk1 (V3 m ρ) c 1 t : S8x2048x256.Idx → EReal) = (V3 m ρ c main_v3 : S8x2048x256.Idx → EReal) := by
  obtain ⟨-, -, -, e0, e1, e2, -⟩ := idx_facts t
  funext y
  show V3 m ρ c main_v3 (((cfg1.win 1).blk t).view.emb y) = V3 m ρ c main_v3 y
  refine congrArg (V3 m ρ c main_v3) ?_
  funext a; apply Fin.ext
  match a with
  | ⟨0, _⟩ => show win1_1.index t (0 : Fin 3) * 8 + 1 * (y 0).val = (y 0).val; omega
  | ⟨1, _⟩ => show win1_1.index t (1 : Fin 3) * 2048 + 1 * (y 1).val = (y 1).val; omega
  | ⟨2, _⟩ => show win1_1.index t (2 : Fin 3) * 256 + 1 * (y 2).val = (y 2).val; omega

/-- The value window's block is the whole array, at every point. -/
theorem vblk_eq (c : Dev nD) (t : Fin cfg1.N) :
    (iblk1 (V3 m ρ) c 2 t : S8x2048x256.Idx → EReal) = (V3 m ρ c main_v4 : S8x2048x256.Idx → EReal) := by
  obtain ⟨-, -, -, -, -, -, e0, e1, e2, -⟩ := idx_facts t
  funext y
  show V3 m ρ c main_v4 (((cfg1.win 2).blk t).view.emb y) = V3 m ρ c main_v4 y
  refine congrArg (V3 m ρ c main_v4) ?_
  funext a; apply Fin.ext
  match a with
  | ⟨0, _⟩ => show win1_2.index t (0 : Fin 3) * 8 + 1 * (y 0).val = (y 0).val; omega
  | ⟨1, _⟩ => show win1_2.index t (1 : Fin 3) * 2048 + 1 * (y 1).val = (y 1).val; omega
  | ⟨2, _⟩ => show win1_2.index t (2 : Fin 3) * 256 + 1 * (y 2).val = (y 2).val; omega

/-- An index of the result array is in point t's block iff its row is among the tile's 256. -/
theorem mem_blk (t : Fin cfg1.N) (i : S8x2048x256.Idx) :
    i ∈ ((cfg1.win 3).blk t).view.set ↔ ∀ a : Fin 3, win1_3.index t a * S8x256x256.size a ≤ (i a).val ∧ (i a).val < win1_3.index t a * S8x256x256.size a + S8x256x256.size a := by
  show i ∈ ((View.whole main_v5).slice (win1_3.rect t)).set ↔ _
  rw [View.set_slice_whole, Rect.mem_set_unit]
  exact Iff.rfl

section
variable (c : Dev nD) (x : SA.Idx → ℝ) (wq : SW.Idx → ℝ) (bq : SB.Idx → ℝ) (wk : SW.Idx → ℝ) (bk : SB.Idx → ℝ)
  (wv : SW.Idx → ℝ) (bv : SB.Idx → ℝ)
  (h0 : (m ((c : Thread nD τ).loc main_arg0) : S8x2048x256.Idx → EReal) = fun i => ((x i : ℝ) : EReal))
  (h1 : (m ((c : Thread nD τ).loc main_arg1) : S256x256.Idx → EReal) = fun i => ((wq i : ℝ) : EReal))
  (h2 : (m ((c : Thread nD τ).loc main_arg2) : S256.Idx → EReal) = fun i => ((bq i : ℝ) : EReal))
  (h3 : (m ((c : Thread nD τ).loc main_arg3) : S256x256.Idx → EReal) = fun i => ((wk i : ℝ) : EReal))
  (h4 : (m ((c : Thread nD τ).loc main_arg4) : S256.Idx → EReal) = fun i => ((bk i : ℝ) : EReal))
  (h5 : (m ((c : Thread nD τ).loc main_arg5) : S256x256.Idx → EReal) = fun i => ((wv i : ℝ) : EReal))
  (h6 : (m ((c : Thread nD τ).loc main_arg6) : S256.Idx → EReal) = fun i => ((bv i : ℝ) : EReal))
include h0 h1 h2 h3 h4 h5 h6

/-- What point t writes back is block t of G. -/
theorem flushed_eq (t : Fin cfg1.N) :
    (dat1 (V3 m ρ) c).flushed 3 t = ((cfg1.win 3).blk t).view.read (Elt Ideal) (G x wq bq wk bk wv bv) := by
  show (cfg1.win 3).cut (grid1.coords t) ((dat1 (V3 m ρ) c).after 3 t) = _
  rw [after1_3]
  unfold outsAt1
  rw [Flash.out_eq_block]
  have e0 := qblk_eq m ρ c t _ (Proj.v2_eq m ρ c x wq bq h0 h1 h2)
  have e1 := (kblk_eq m ρ c t).trans (Proj.v3_eq m ρ c x wk bk h0 h3 h4)
  have e2 := (vblk_eq m ρ c t).trans (Proj.v4_eq m ρ c x wv bv h0 h5 h6)
  obtain ⟨-, -, -, -, -, -, -, -, -, i0, i1, i2⟩ := idx_facts t
  funext y
  show Flash.block (iblk1 (V3 m ρ) c 0 t) (iblk1 (V3 m ρ) c 1 t) (iblk1 (V3 m ρ) c 2 t) y
    = G x wq bq wk bk wv bv (((cfg1.win 3).blk t).view.emb y)
  have hb := Flash.block_real (fun y : S8x256x256.Idx => projR x wq bq (ix3 (y 0) (rowOf t (y 1)) (y 2)) * (1 / 16))
    (projR x wk bk) (projR x wv bv)
  rw [e0, e1, e2]
  refine (congrFun hb y).trans ?_
  have hi : ((cfg1.win 3).blk t).view.emb y = ix3 (y 0) (rowOf t (y 1)) (y 2) := by
    funext a; apply Fin.ext
    match a with
    | ⟨0, _⟩ => show win1_3.index t (0 : Fin 3) * 8 + 1 * (y 0).val = (y 0).val; omega
    | ⟨1, _⟩ => show win1_3.index t (1 : Fin 3) * 256 + 1 * (y 1).val = 256 * t.val + (y 1).val; omega
    | ⟨2, _⟩ => show win1_3.index t (2 : Fin 3) * 256 + 1 * (y 2).val = (y 2).val; omega
  rw [hi]
  rfl

/-- The result array after the run is G of the argument arrays. -/
theorem final : ((dat1 (V3 m ρ) c).arrAt 3 cfg1.N : S8x2048x256.Idx → EReal) = G x wq bq wk bk wv bv :=
  (dat1 (V3 m ρ) c).arrAt_eq_of_cover 3 (G x wq bq wk bk wv bv)
    (fun t _ => flushed_eq m ρ c x wq bq wk bk wv bv h0 h1 h2 h3 h4 h5 h6 t) fun i => by
      have hN : cfg1.N = 8 := N_1
      have h0' : (i 0).val < 8 := (i 0).isLt
      have h1' : (i 1).val < 2048 := (i 1).isLt
      have h2' : (i 2).val < 256 := (i 2).isLt
      refine ⟨⟨(i 1).val / 256, by omega⟩, flush1_3 _, ?_⟩
      obtain ⟨-, -, -, -, -, -, -, -, -, i0, i1, i2⟩ := idx_facts ⟨(i 1).val / 256, by omega⟩
      rw [mem_blk]
      intro a
      match a with
      | ⟨0, _⟩ => show win1_3.index _ (0 : Fin 3) * 8 ≤ (i 0).val ∧ (i 0).val < win1_3.index _ (0 : Fin 3) * 8 + 8; rw [i0]; omega
      | ⟨1, _⟩ => show win1_3.index _ (1 : Fin 3) * 256 ≤ (i 1).val ∧ (i 1).val < win1_3.index _ (1 : Fin 3) * 256 + 256; rw [i1]; dsimp only; omega
      | ⟨2, _⟩ => show win1_3.index _ (2 : Fin 3) * 256 ≤ (i 2).val ∧ (i 2).val < win1_3.index _ (2 : Fin 3) * 256 + 256; rw [i2]; omega

end

end Cert.KernelIdeal.FlashArr

end
-- ==== Proof.lean ====
/-
  The proof of `Cert.Claim`: scaled-dot-product attention computed by two kernels — a fused projection of x into
  Q/16, K, V over sixteen row blocks, then a flash-attention pass that runs an online softmax over eight key/value
  tiles per query tile — against the plain softmax(Q Kᵀ / sqrt 256) V.

  The three frames are the generated runs. The idealized kernel and the idealized reference agree over the extended
  reals because, under the precondition, every input entry is a real; both results are then, entry by entry, the real
      ( Σ_k exp(q · K_k) · V_k ) / ( Σ_k exp(q · K_k) ),   q the query row scaled by 1/16:
  on the reference's side the subtracted row maximum cancels in the quotient, on the kernel's side every running shift
  does (exp(m_old - m_new) · exp(s - m_old) = exp(s - m_new)), whatever value the shifts take, the finite negative
  starting value included; and (Q · K)/16 = (Q/16) · K.
-/
import proofs.«421883_j63634235458009_3_alg».proof.Defs
import proofs.«421883_j63634235458009_3_alg».proof.Proof.Gen.Kernel
import proofs.«421883_j63634235458009_3_alg».proof.Proof.Gen.Kernel.Skeleton
import proofs.«421883_j63634235458009_3_alg».proof.Proof.Gen.Kernel.Launch
import proofs.«421883_j63634235458009_3_alg».proof.Proof.Gen.Kernel.Points
import proofs.«421883_j63634235458009_3_alg».proof.Proof.Gen.Kernel.Frame
import proofs.«421883_j63634235458009_3_alg».proof.Proof.Gen.KernelIdeal
import proofs.«421883_j63634235458009_3_alg».proof.Proof.Gen.KernelIdeal.Skeleton
import proofs.«421883_j63634235458009_3_alg».proof.Proof.Gen.KernelIdeal.Launch
import proofs.«421883_j63634235458009_3_alg».proof.Proof.Gen.KernelIdeal.Points
import proofs.«421883_j63634235458009_3_alg».proof.Proof.Gen.KernelIdeal.Frame
import proofs.«421883_j63634235458009_3_alg».proof.Proof.Gen.ReferenceIdeal
import proofs.«421883_j63634235458009_3_alg».proof.Proof.Gen.ReferenceIdeal.Run
import proofs.«421883_j63634235458009_3_alg».proof.Proof.Gen.ReferenceIdeal.Read
import proofs.«421883_j63634235458009_3_alg».proof.Proof.Gen.Pre_finite_inputs
import proofs.«421883_j63634235458009_3_alg».proof.Proof.Finite
import proofs.«421883_j63634235458009_3_alg».proof.Proof.RefValue
import proofs.«421883_j63634235458009_3_alg».proof.Proof.FlashArr
import proofs.«421883_j63634235458009_3_alg».proof.Proof.KernelRun
import Idealize.ShloMosaic.Adequacy
import Idealize.ShloMosaic.Init

noncomputable section

namespace Cert.Proof

open Idealize.ShloMosaic Idealize.SL.Sem Idealize.ShloMosaic.TcCoe

/-- The two idealized programs end with equal results: the kernel's result array and the reference's are both `G` of
    the (real) argument arrays. -/
theorem algebraic : @Cert.algebraic_KernelIdeal_ReferenceIdeal Cert.KernelIdeal.Gen.facts Cert.ReferenceIdeal.Gen.facts Cert.Pre_finite_inputs.Gen.facts := by
  intro m ρ m' ρ' hpre hagree
  refine ⟨fun c => Cert.KernelIdeal.Gen.W4 m ρ c (Proc.devRef .tc Cert.KernelIdeal.main_v5), Cert.KernelIdeal.GenP.run_named m ρ, ?_⟩
  refine (θ_run Cert.ReferenceIdeal.defs _ _).mono (fun r h c => ⟨(h c).1.trans ?_, (h c).2⟩)
    (Cert.ReferenceIdeal.Value.run (F := Ideal) m' ρ')
  obtain ⟨⟨x, hx⟩, ⟨wq, hwq⟩, ⟨bq, hbq⟩, ⟨wk, hwk⟩, ⟨bk, hbk⟩, ⟨wv, hwv⟩, ⟨bv, hbv⟩⟩ :=
    Cert.Attn.real_of_pre _ _ _ _ _ _ _ (hpre c)
  obtain ⟨a0, a1, a2, a3, a4, a5, a6⟩ := hagree c
  rw [Cert.ReferenceIdeal.Read.val_main_v27_eq, a0, a1, a2, a3, a4, a5, a6, hx, hwq, hbq, hwk, hbk, hwv, hbv,
    Cert.Attn.ref_real]
  exact ((Cert.KernelIdeal.Gen.W4_arr m ρ c 3).trans
    (Cert.KernelIdeal.FlashArr.final m ρ c x wq bq wk bk wv bv hx hwq hbq hwk hbk hwv hbv)).symm

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
